-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v67_0)) (v1 : (c : Dev Cert.KernelIdeal.nD) → Buf (Elt Ideal) ((c.tc : Thread Cert.KernelIdeal.nD Cert.KernelIdeal.τ).loc Cert.KernelIdeal.main_v67_1)) (v2 : (c : Dev Cert.KernelIdeal.nD) → Buf (Elt Ideal) ((c.tc : Thread Cert.KernelIdeal.nD Cert.KernelIdeal.τ).loc Cert.KernelIdeal.main_v67_2)) (v3 : (c : Dev Cert.KernelIdeal.nD) → Buf (Elt Ideal) ((c.tc : Thread Cert.KernelIdeal.nD Cert.KernelIdeal.τ).loc Cert.KernelIdeal.main_v67_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67_0) = v0 c
          ∧ r.2.mem ((c.tc : Thread Cert.KernelIdeal.nD Cert.KernelIdeal.τ).loc Cert.KernelIdeal.main_v67_1) = v1 c
          ∧ r.2.mem ((c.tc : Thread Cert.KernelIdeal.nD Cert.KernelIdeal.τ).loc Cert.KernelIdeal.main_v67_2) = v2 c
          ∧ r.2.mem ((c.tc : Thread Cert.KernelIdeal.nD Cert.KernelIdeal.τ).loc Cert.KernelIdeal.main_v67_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_v74) = v2 c
          ∧ r.2.mem ((c.tc : Thread Cert.ReferenceIdeal.nD Cert.ReferenceIdeal.τ).loc Cert.ReferenceIdeal.main_v75) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S3x128x128 : Shape := ⟨3, ![3, 128, 128]⟩
abbrev S3x128 : Shape := ⟨2, ![3, 128]⟩
abbrev S1x128 : Shape := ⟨2, ![1, 128]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S1x128 .f32) (main_arg7 : FVec F S1 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S1x128 .f32 := Host.absf main_arg6
  let main_cst_6 : FVec F S_ .f32 := constant S_ .f32 0x7F800000#32
  let main_v20 : FVec F S1x128 .f32 := broadcastInDim S1x128 ![] bcast_S_S1x128 main_cst_6
  let main_v21 : IVec S1x128 1 := cmpf .olt main_v19 main_v20
  let main_c_7 : IVec S_ 1 := constantI S_ 1 1#1
  let main_v22 : IVec S_ 1 := (fun x v => Host.reduce IntOp.andi x v reducesTo_S1x128_S_d0_1 h_S_) main_v21 main_c_7
  let main_v23 : IVec S_ 1 := andi main_v18 main_v22
  let main_v24 : FVec F S1 .f32 := Host.absf main_arg7
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S100000x128 .f32) (main_arg1 : IVec S2x1600000 32) (main_arg2 : IVec S100000 32) (main_arg3 : FVec F S3x128x128 .f32) (main_arg4 : FVec F S3x128 .f32) (main_arg5 : FVec F S3x128x128 .f32) (main_arg6 : FVec F S1x128 .f32) (main_arg7 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3x128x128 .f32 := Host.absf main_arg3
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg4
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128x128 .f32 := Host.absf main_arg5
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg6 main_arg7 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S3x128x128 : Shape := ⟨3, ![3, 128, 128]⟩
abbrev S3x128 : Shape := ⟨2, ![3, 128]⟩
abbrev S1x128 : Shape := ⟨2, ![1, 128]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128x128 : Shape := ⟨3, ![1, 128, 128]⟩
abbrev S128x128 : Shape := ⟨2, ![128, 128]⟩
abbrev S128 : Shape := ⟨1, ![128]⟩
abbrev S2000x128 : Shape := ⟨2, ![2000, 128]⟩
abbrev S50000x256 : Shape := ⟨2, ![50000, 256]⟩
abbrev S128x1 : Shape := ⟨2, ![128, 1]⟩
abbrev S1x1 : Shape := ⟨2, ![1, 1]⟩
abbrev S50000x1 : Shape := ⟨2, ![50000, 1]⟩
abbrev S50000x128 : Shape := ⟨2, ![50000, 128]⟩
abbrev S2000x256 : Shape := ⟨2, ![2000, 256]⟩
abbrev S2000x1 : Shape := ⟨2, ![2000, 1]⟩

abbrev nBuf : Space → Nat
  | .hbm => 88
  | .vmem => 39
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S3x128x128, .f32⟩
  | .hbm, ⟨4, _⟩ => ⟨S3x128, .f32⟩
  | .hbm, ⟨5, _⟩ => ⟨S3x128x128, .f32⟩
  | .hbm, ⟨6, _⟩ => ⟨S1x128, .f32⟩
  | .hbm, ⟨7, _⟩ => ⟨S1, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S1x128x128, .f32⟩
  | .hbm, ⟨26, _⟩ => ⟨S128x128, .f32⟩
  | .hbm, ⟨27, _⟩ => ⟨S128x128, .f32⟩
  | .hbm, ⟨28, _⟩ => ⟨S1x128x128, .f32⟩
  | .hbm, ⟨29, _⟩ => ⟨S128x128, .f32⟩
  | .hbm, ⟨30, _⟩ => ⟨S128x128, .f32⟩
  | .hbm, ⟨31, _⟩ => ⟨S1x128, .f32⟩
  | .hbm, ⟨32, _⟩ => ⟨S128, .f32⟩
  | .hbm, ⟨33, _⟩ => ⟨S1x128, .f32⟩
  | .hbm, ⟨34, _⟩ => ⟨S100000x128, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x128, .f32⟩
  | .hbm, ⟨44, _⟩ => ⟨S_, .f32⟩
  | .hbm, ⟨45, _⟩ => ⟨S100000x128, .f32⟩
  | .hbm, ⟨46, _⟩ => ⟨S1600000x1, .i32⟩
  | .hbm, ⟨47, _⟩ => ⟨S100000x128, .f32⟩
  | .hbm, ⟨48, _⟩ => ⟨S1x128x128, .f32⟩
  | .hbm, ⟨49, _⟩ => ⟨S128x128, .f32⟩
  | .hbm, ⟨50, _⟩ => ⟨S128x128, .f32⟩
  | .hbm, ⟨51, _⟩ => ⟨S1x128x128, .f32⟩
  | .hbm, ⟨52, _⟩ => ⟨S128x128, .f32⟩
  | .hbm, ⟨53, _⟩ => ⟨S128x128, .f32⟩
  | .hbm, ⟨54, _⟩ => ⟨S1x128, .f32⟩
  | .hbm, ⟨55, _⟩ => ⟨S128, .f32⟩
  | .hbm, ⟨56, _⟩ => ⟨S1x128, .f32⟩
  | .hbm, ⟨57, _⟩ => ⟨S100000x128, .f32⟩
  | .hbm, ⟨58, _⟩ => ⟨S_, .i32⟩
  | .hbm, ⟨59, _⟩ => ⟨S1600000, .i32⟩
  | .hbm, ⟨60, _⟩ => ⟨S1600000, .i1⟩
  | .hbm, ⟨61, _⟩ => ⟨S_, .i32⟩
  | .hbm, ⟨62, _⟩ => ⟨S1600000, .i32⟩
  | .hbm, ⟨63, _⟩ => ⟨S1600000, .i32⟩
  | .hbm, ⟨64, _⟩ => ⟨S1600000, .i32⟩
  | .hbm, ⟨65, _⟩ => ⟨S1600000x1, .i32⟩
  | .hbm, ⟨66, _⟩ => ⟨S1600000x128, .f32⟩
  | .hbm, ⟨67, _⟩ => ⟨S_, .f32⟩
  | .hbm, ⟨68, _⟩ => ⟨S100000x128, .f32⟩
  | .hbm, ⟨69, _⟩ => ⟨S1600000x1, .i32⟩
  | .hbm, ⟨70, _⟩ => ⟨S100000x128, .f32⟩
  | .hbm, ⟨71, _⟩ => ⟨S1x128x128, .f32⟩
  | .hbm, ⟨72, _⟩ => ⟨S128x128, .f32⟩
  | .hbm, ⟨73, _⟩ => ⟨S128x128, .f32⟩
  | .hbm, ⟨74, _⟩ => ⟨S1x128x128, .f32⟩
  | .hbm, ⟨75, _⟩ => ⟨S128x128, .f32⟩
  | .hbm, ⟨76, _⟩ => ⟨S128x128, .f32⟩
  | .hbm, ⟨77, _⟩ => ⟨S1x128, .f32⟩
  | .hbm, ⟨78, _⟩ => ⟨S128, .f32⟩
  | .hbm, ⟨79, _⟩ => ⟨S1x128, .f32⟩
  | .hbm, ⟨80, _⟩ => ⟨S100000x128, .f32⟩
  | .hbm, ⟨81, _⟩ => ⟨S50000x256, .f32⟩
  | .hbm, ⟨82, _⟩ => ⟨S128x1, .f32⟩
  | .hbm, ⟨83, _⟩ => ⟨S1x1, .f32⟩
  | .hbm, ⟨84, _⟩ => ⟨S50000x1, .f32⟩
  | .hbm, ⟨85, _⟩ => ⟨S50000x128, .f32⟩
  | .hbm, ⟨86, _⟩ => ⟨S50000x128, .f32⟩
  | .hbm, ⟨87, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x128, .f32⟩
  | .local _ .vmem, ⟨23, _⟩ => ⟨S128x128, .f32⟩
  | .local _ .vmem, ⟨24, _⟩ => ⟨S1x128, .f32⟩
  | .local _ .vmem, ⟨25, _⟩ => ⟨S2000x128, .f32⟩
  | .local _ .vmem, ⟨26, _⟩ => ⟨S2000x128, .f32⟩
  | .local _ .vmem, ⟨27, _⟩ => ⟨S2000x256, .f32⟩
  | .local _ .vmem, ⟨28, _⟩ => ⟨S2000x256, .f32⟩
  | .local _ .vmem, ⟨29, _⟩ => ⟨S128x1, .f32⟩
  | .local _ .vmem, ⟨30, _⟩ => ⟨S1x1, .f32⟩
  | .local _ .vmem, ⟨31, _⟩ => ⟨S2000x1, .f32⟩
  | .local _ .vmem, ⟨32, _⟩ => ⟨S2000x1, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_1 : Ref sig .tc := ⟨.hbm, 35, rfl⟩
abbrev main_v24 : Ref sig .tc := ⟨.hbm, 36, rfl⟩
abbrev main_v25 : Ref sig .tc := ⟨.hbm, 37, rfl⟩
abbrev main_c_2 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_3 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_c_4 : Ref sig .tc := ⟨.hbm, 58, rfl⟩
abbrev main_v44 : Ref sig .tc := ⟨.hbm, 59, rfl⟩
abbrev main_v45 : Ref sig .tc := ⟨.hbm, 60, rfl⟩
abbrev main_c_5 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_6 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67_0 : Ref sig .tc := ⟨.hbm, 84, rfl⟩
abbrev main_v67_1 : Ref sig .tc := ⟨.hbm, 85, rfl⟩
abbrev main_v67_2 : Ref sig .tc := ⟨.hbm, 86, rfl⟩
abbrev main_v67_3 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg3_1 : Ref sig .tc := ⟨.vmem, 32, rfl⟩
abbrev cc3_stg4_0 : Ref sig .tc := ⟨.vmem, 33, rfl⟩
abbrev cc3_stg4_1 : Ref sig .tc := ⟨.vmem, 34, rfl⟩
abbrev cc3_stg5_0 : Ref sig .tc := ⟨.vmem, 35, rfl⟩
abbrev cc3_stg5_1 : Ref sig .tc := ⟨.vmem, 36, rfl⟩
abbrev cc3_stg6_0 : Ref sig .tc := ⟨.vmem, 37, rfl⟩
abbrev cc3_stg6_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem3_0 : DmaSem sig := 31
abbrev cc3_sem3_1 : DmaSem sig := 32
abbrev cc3_sem4_0 : DmaSem sig := 33
abbrev cc3_sem4_1 : DmaSem sig := 34
abbrev cc3_sem5_0 : DmaSem sig := 35
abbrev cc3_sem5_1 : DmaSem sig := 36
abbrev cc3_sem6_0 : DmaSem sig := 37
abbrev cc3_sem6_1 : DmaSem sig := 38

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S2000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S2000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S2000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  transposes_S128x128_S128x128_1_0 : S128x128.Transposes [1, 0] S128x128
  slices_S3x128_S1x128_0_0 : S3x128.Slices ![0, 0] S1x128
  shapeCasts_S1x128_S128 : S1x128.ShapeCasts S128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  shapeCasts_S100000x128_S50000x256 : S100000x128.ShapeCasts S50000x256
  transposes_S1x128_S128x1_1_0 : S1x128.Transposes [1, 0] S128x1
  shapeCasts_S1_S1x1 : S1.ShapeCasts S1x1
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  slices_S2000x256_o0_0_S2000x128 : S2000x256.Slices ![0, 0] S2000x128
  slices_S2000x256_o0_128_S2000x128 : S2000x256.Slices ![0, 128] S2000x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  dot_S2000x128_S128x1_S2000x1_1_0_0_1_n_n_wf : DotDims.WF S2000x128 S128x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S100000x128.size a
  hwx1_5 : ∀ i : grid1.Coords, EltTy.bits .f32 = 32 ∨ (Rect.block (s := S100000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S100000x128.size a
  hwx2_5 : ∀ i : grid2.Coords, EltTy.bits .f32 = 32 ∨ (Rect.block (s := S100000x128) S2000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x1.size a ≤ S128x1.size a
  hwx3_1 : ∀ i : grid3.Coords, EltTy.bits .f32 = 32 ∨ (Rect.block (s := S128x1) S128x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1.size a ≤ S1x1.size a
  hwx3_2 : ∀ i : grid3.Coords, EltTy.bits .f32 = 32 ∨ (Rect.block (s := S1x1) S1x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x1.size a ≤ S50000x1.size a
  hwx3_3 : ∀ i : grid3.Coords, EltTy.bits .f32 = 32 ∨ (Rect.block (s := S50000x1) S2000x1.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x128.size a ≤ S50000x128.size a
  hwx3_4 : ∀ i : grid3.Coords, EltTy.bits .f32 = 32 ∨ (Rect.block (s := S50000x128) S2000x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x128.size a ≤ S50000x128.size a
  hwx3_5 : ∀ i : grid3.Coords, EltTy.bits .f32 = 32 ∨ (Rect.block (s := S50000x128) S2000x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x128.size a ≤ S50000x128.size a
  hwx3_6 : ∀ i : grid3.Coords, EltTy.bits .f32 = 32 ∨ (Rect.block (s := S50000x128) S2000x128.size (cc3_transform_6 i) (hinb3_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x1_S2000x1_1_0_0_1_n_n : DotDims S2000x128 S128x1 S2000x1 where
  lhsContracting := [1]
  rhsContracting := [0]
  lhsNonContracting := [0]
  rhsNonContracting := [1]
  lhsBatch := []
  rhsBatch := []
  wf := dot_S2000x128_S128x1_S2000x1_1_0_0_1_n_n_wf

abbrev win0_0 : Pipeline.Window sig grid0 :=
  Pipeline.Window.ofSpec (Memref.whole main_v13) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v33) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v36) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v53) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v56) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v59) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v62) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v63) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v64) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v65) S128x1.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v66) S1x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v67_0) S2000x1.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v67_1) S2000x128.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v67_2) S2000x128.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v67_3) S2000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S3x128x128 : Shape := ⟨3, ![3, 128, 128]⟩
abbrev S3x128 : Shape := ⟨2, ![3, 128]⟩
abbrev S1x128 : Shape := ⟨2, ![1, 128]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128x128 : Shape := ⟨3, ![1, 128, 128]⟩
abbrev S128x128 : Shape := ⟨2, ![128, 128]⟩
abbrev S128 : Shape := ⟨1, ![128]⟩
abbrev S50000x256 : Shape := ⟨2, ![50000, 256]⟩
abbrev S50000x128 : Shape := ⟨2, ![50000, 128]⟩
abbrev S50000x1 : Shape := ⟨2, ![50000, 1]⟩
abbrev S1x1 : Shape := ⟨2, ![1, 1]⟩

abbrev nBuf : Space → Nat
  | .hbm => 117
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S3x128x128, .f32⟩
  | .hbm, ⟨4, _⟩ => ⟨S3x128, .f32⟩
  | .hbm, ⟨5, _⟩ => ⟨S3x128x128, .f32⟩
  | .hbm, ⟨6, _⟩ => ⟨S1x128, .f32⟩
  | .hbm, ⟨7, _⟩ => ⟨S1, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S1x128x128, .f32⟩
  | .hbm, ⟨26, _⟩ => ⟨S128x128, .f32⟩
  | .hbm, ⟨27, _⟩ => ⟨S100000x128, .f32⟩
  | .hbm, ⟨28, _⟩ => ⟨S1x128, .f32⟩
  | .hbm, ⟨29, _⟩ => ⟨S128, .f32⟩
  | .hbm, ⟨30, _⟩ => ⟨S1x128, .f32⟩
  | .hbm, ⟨31, _⟩ => ⟨S100000x128, .f32⟩
  | .hbm, ⟨32, _⟩ => ⟨S100000x128, .f32⟩
  | .hbm, ⟨33, _⟩ => ⟨S1x128x128, .f32⟩
  | .hbm, ⟨34, _⟩ => ⟨S128x128, .f32⟩
  | .hbm, ⟨35, _⟩ => ⟨S100000x128, .f32⟩
  | .hbm, ⟨36, _⟩ => ⟨S100000x128, .f32⟩
  | .hbm, ⟨37, _⟩ => ⟨S_, .f32⟩
  | .hbm, ⟨38, _⟩ => ⟨S100000x128, .f32⟩
  | .hbm, ⟨39, _⟩ => ⟨S100000x128, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x128, .f32⟩
  | .hbm, ⟨49, _⟩ => ⟨S_, .f32⟩
  | .hbm, ⟨50, _⟩ => ⟨S100000x128, .f32⟩
  | .hbm, ⟨51, _⟩ => ⟨S1600000x1, .i32⟩
  | .hbm, ⟨52, _⟩ => ⟨S100000x128, .f32⟩
  | .hbm, ⟨53, _⟩ => ⟨S1x128x128, .f32⟩
  | .hbm, ⟨54, _⟩ => ⟨S128x128, .f32⟩
  | .hbm, ⟨55, _⟩ => ⟨S100000x128, .f32⟩
  | .hbm, ⟨56, _⟩ => ⟨S1x128, .f32⟩
  | .hbm, ⟨57, _⟩ => ⟨S128, .f32⟩
  | .hbm, ⟨58, _⟩ => ⟨S1x128, .f32⟩
  | .hbm, ⟨59, _⟩ => ⟨S100000x128, .f32⟩
  | .hbm, ⟨60, _⟩ => ⟨S100000x128, .f32⟩
  | .hbm, ⟨61, _⟩ => ⟨S1x128x128, .f32⟩
  | .hbm, ⟨62, _⟩ => ⟨S128x128, .f32⟩
  | .hbm, ⟨63, _⟩ => ⟨S100000x128, .f32⟩
  | .hbm, ⟨64, _⟩ => ⟨S100000x128, .f32⟩
  | .hbm, ⟨65, _⟩ => ⟨S_, .f32⟩
  | .hbm, ⟨66, _⟩ => ⟨S100000x128, .f32⟩
  | .hbm, ⟨67, _⟩ => ⟨S100000x128, .f32⟩
  | .hbm, ⟨68, _⟩ => ⟨S_, .i32⟩
  | .hbm, ⟨69, _⟩ => ⟨S1600000, .i32⟩
  | .hbm, ⟨70, _⟩ => ⟨S1600000, .i1⟩
  | .hbm, ⟨71, _⟩ => ⟨S_, .i32⟩
  | .hbm, ⟨72, _⟩ => ⟨S1600000, .i32⟩
  | .hbm, ⟨73, _⟩ => ⟨S1600000, .i32⟩
  | .hbm, ⟨74, _⟩ => ⟨S1600000, .i32⟩
  | .hbm, ⟨75, _⟩ => ⟨S1600000x1, .i32⟩
  | .hbm, ⟨76, _⟩ => ⟨S1600000x128, .f32⟩
  | .hbm, ⟨77, _⟩ => ⟨S_, .f32⟩
  | .hbm, ⟨78, _⟩ => ⟨S100000x128, .f32⟩
  | .hbm, ⟨79, _⟩ => ⟨S1600000x1, .i32⟩
  | .hbm, ⟨80, _⟩ => ⟨S100000x128, .f32⟩
  | .hbm, ⟨81, _⟩ => ⟨S1x128x128, .f32⟩
  | .hbm, ⟨82, _⟩ => ⟨S128x128, .f32⟩
  | .hbm, ⟨83, _⟩ => ⟨S100000x128, .f32⟩
  | .hbm, ⟨84, _⟩ => ⟨S1x128, .f32⟩
  | .hbm, ⟨85, _⟩ => ⟨S128, .f32⟩
  | .hbm, ⟨86, _⟩ => ⟨S1x128, .f32⟩
  | .hbm, ⟨87, _⟩ => ⟨S100000x128, .f32⟩
  | .hbm, ⟨88, _⟩ => ⟨S100000x128, .f32⟩
  | .hbm, ⟨89, _⟩ => ⟨S1x128x128, .f32⟩
  | .hbm, ⟨90, _⟩ => ⟨S128x128, .f32⟩
  | .hbm, ⟨91, _⟩ => ⟨S100000x128, .f32⟩
  | .hbm, ⟨92, _⟩ => ⟨S100000x128, .f32⟩
  | .hbm, ⟨93, _⟩ => ⟨S_, .f32⟩
  | .hbm, ⟨94, _⟩ => ⟨S100000x128, .f32⟩
  | .hbm, ⟨95, _⟩ => ⟨S100000x128, .f32⟩
  | .hbm, ⟨96, _⟩ => ⟨S50000x256, .f32⟩
  | .hbm, ⟨97, _⟩ => ⟨S50000x128, .f32⟩
  | .hbm, ⟨98, _⟩ => ⟨S50000x128, .f32⟩
  | .hbm, ⟨99, _⟩ => ⟨S50000x128, .f32⟩
  | .hbm, ⟨100, _⟩ => ⟨S50000x128, .f32⟩
  | .hbm, ⟨101, _⟩ => ⟨S_, .f32⟩
  | .hbm, ⟨102, _⟩ => ⟨S50000x128, .f32⟩
  | .hbm, ⟨103, _⟩ => ⟨S50000x128, .f32⟩
  | .hbm, ⟨104, _⟩ => ⟨S50000x128, .f32⟩
  | .hbm, ⟨105, _⟩ => ⟨S50000x1, .f32⟩
  | .hbm, ⟨106, _⟩ => ⟨S1x1, .f32⟩
  | .hbm, ⟨107, _⟩ => ⟨S50000x1, .f32⟩
  | .hbm, ⟨108, _⟩ => ⟨S50000x1, .f32⟩
  | .hbm, ⟨109, _⟩ => ⟨S50000x1, .f32⟩
  | .hbm, ⟨110, _⟩ => ⟨S50000x1, .f32⟩
  | .hbm, ⟨111, _⟩ => ⟨S_, .f32⟩
  | .hbm, ⟨112, _⟩ => ⟨S50000x1, .f32⟩
  | .hbm, ⟨113, _⟩ => ⟨S50000x1, .f32⟩
  | .hbm, ⟨114, _⟩ => ⟨S_, .f32⟩
  | .hbm, ⟨115, _⟩ => ⟨S50000x1, .f32⟩
  | .hbm, ⟨116, _⟩ => ⟨S50000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_call0_cst : Ref sig .tc := ⟨.hbm, 37, rfl⟩
abbrev main_call0_v0 : Ref sig .tc := ⟨.hbm, 38, rfl⟩
abbrev main_v26 : Ref sig .tc := ⟨.hbm, 39, rfl⟩
abbrev main_c_1 : Ref sig .tc := ⟨.hbm, 40, rfl⟩
abbrev main_v27 : Ref sig .tc := ⟨.hbm, 41, rfl⟩
abbrev main_v28 : Ref sig .tc := ⟨.hbm, 42, rfl⟩
abbrev main_c_2 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_3 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_call1_cst : Ref sig .tc := ⟨.hbm, 65, rfl⟩
abbrev main_call1_v0 : Ref sig .tc := ⟨.hbm, 66, rfl⟩
abbrev main_v49 : Ref sig .tc := ⟨.hbm, 67, rfl⟩
abbrev main_c_4 : Ref sig .tc := ⟨.hbm, 68, rfl⟩
abbrev main_v50 : Ref sig .tc := ⟨.hbm, 69, rfl⟩
abbrev main_v51 : Ref sig .tc := ⟨.hbm, 70, rfl⟩
abbrev main_c_5 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_6 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_call2_cst : Ref sig .tc := ⟨.hbm, 93, rfl⟩
abbrev main_call2_v0 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_cst_7 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_cst_8 : Ref sig .tc := ⟨.hbm, 111, rfl⟩
abbrev main_v87 : Ref sig .tc := ⟨.hbm, 112, rfl⟩
abbrev main_v88 : Ref sig .tc := ⟨.hbm, 113, rfl⟩
abbrev main_cst_9 : Ref sig .tc := ⟨.hbm, 114, rfl⟩
abbrev main_v89 : Ref sig .tc := ⟨.hbm, 115, rfl⟩
abbrev main_v90 : Ref sig .tc := ⟨.hbm, 116, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  shapeCasts_S100000x128_S50000x256 : S100000x128.ShapeCasts S50000x256
  slices_S50000x256_S50000x128_0_0 : S50000x256.Slices ![0, 0] S50000x128
  slices_S50000x256_S50000x128_0_128 : S50000x256.Slices ![0, 128] S50000x128
  bcast_S_S50000x128 : S_.BroadcastsInDim S50000x128 (![] : Fin 0 → Fin S50000x128.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S_S50000x1 : S_.BroadcastsInDim S50000x1 (![] : Fin 0 → Fin S50000x1.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_1_0_0_n_n_wf : DotDims.WF S100000x128 S128x128 S100000x128 [1] [1] [0] [0] [] []
  dot_S50000x128_S1x128_S50000x1_1_1_0_0_n_n_wf : DotDims.WF S50000x128 S1x128 S50000x1 [1] [1] [0] [0] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_1_0_0_n_n : DotDims S100000x128 S128x128 S100000x128 where
  lhsContracting := [1]
  rhsContracting := [1]
  lhsNonContracting := [0]
  rhsNonContracting := [0]
  lhsBatch := []
  rhsBatch := []
  wf := dot_S100000x128_S128x128_S100000x128_1_1_0_0_n_n_wf
def dot_S50000x128_S1x128_S50000x1_1_1_0_0_n_n : DotDims S50000x128 S1x128 S50000x1 where
  lhsContracting := [1]
  rhsContracting := [1]
  lhsNonContracting := [0]
  rhsNonContracting := [0]
  lhsBatch := []
  rhsBatch := []
  wf := dot_S50000x128_S1x128_S50000x1_1_1_0_0_n_n_wf

class Facts : Prop extends Facts₀ where

variable [Facts]
-- ==== Proof.Spec.lean ====
/-
  The mathematics both programs compute, stated once over the extended reals and over literal shapes, with no
  program in scope.

  One graph-convolution layer: from the aggregated neighbour features `a` and the node features `x` (both
  100000 x 128), two 128 x 128 weight matrices read as `wr h k`, `wo h k` (output feature `h`, input feature `k`) and
  a bias `b h`, node `n`'s new feature `h` is
      max ( (sum_k a[n,k] * wr h k  +  b h)  +  sum_k x[n,k] * wo h k ,  0 ).

  The read-out: the 100000 x 128 features are re-read as 50000 rows of 256, row `n` holding an adjacent pair of
  nodes side by side.  `leftAt` / `rightAt` are the two halves of a row, `distAt` is
  sqrt ((left - right)^2 + eps) with eps the single-precision word nearest 0.001, and `sigAt` is the logistic
  function of  sum_k dist[n,k] * wl k + bl.
-/
import Idealize.ShloMosaic.PureOps.Ideal
import Idealize.ShloMosaic.PureOps.Ideal.Laws
import Idealize.ShloMosaic.Lib.ValueIdx

noncomputable section

namespace Cert.GraphConv

open Idealize.ShloMosaic Idealize.ShloMosaic.ValueIdx
open scoped BigOperators

/-- Node features: 100000 nodes, 128 features each. -/
abbrev SN : Shape := ⟨2, ![100000, 128]⟩
/-- The same numbers as 50000 rows of an adjacent pair of nodes. -/
abbrev SP : Shape := ⟨2, ![50000, 256]⟩
/-- One half of every pair row. -/
abbrev SH : Shape := ⟨2, ![50000, 128]⟩
/-- One number per pair. -/
abbrev SG : Shape := ⟨2, ![50000, 1]⟩

/-- Node `n`'s feature `h` after one layer. -/
def convAt (a x : SN.Idx → EReal) (wr wo : Fin 128 → Fin 128 → EReal) (b : Fin 128 → EReal)
    (n : Fin 100000) (h : Fin 128) : EReal :=
  max (((∑ k : Fin 128, a (ix2 n k) * wr h k) + b h) + ∑ k : Fin 128, x (ix2 n k) * wo h k) 0

/-- One layer as a whole array. -/
def conv (a x : SN.Idx → EReal) (wr wo : Fin 128 → Fin 128 → EReal) (b : Fin 128 → EReal) : SN.Idx → EReal :=
  fun i => convAt a x wr wo b (i 0) (i 1)

theorem conv_ix2 (a x : SN.Idx → EReal) (wr wo : Fin 128 → Fin 128 → EReal) (b : Fin 128 → EReal)
    (n : Fin 100000) (h : Fin 128) : conv a x wr wo b (ix2 n h) = convAt a x wr wo b n h := rfl

/-- The constant under the square root: the single-precision word of 0.001. -/
def eps : EReal := Ideal.ofBits .f32 0x3A83126F#32

/-- The first node of pair `n`, feature `h`. -/
def leftAt (P : SP.Idx → EReal) (n : Fin 50000) (h : Fin 128) : EReal :=
  P (ix2 n (⟨h.val, by have := h.isLt; omega⟩ : Fin 256))

/-- The second node of pair `n`, feature `h`. -/
def rightAt (P : SP.Idx → EReal) (n : Fin 50000) (h : Fin 128) : EReal :=
  P (ix2 n (⟨128 + h.val, by have := h.isLt; omega⟩ : Fin 256))

/-- sqrt ((left - right)^2 + eps). -/
def distAt (P : SP.Idx → EReal) (n : Fin 50000) (h : Fin 128) : EReal :=
  Ideal.sqrt ((leftAt P n h - rightAt P n h) * (leftAt P n h - rightAt P n h) + eps)

/-- The logistic function of the pair's distances against the read-out weights, plus the read-out bias. -/
def sigAt (P : SP.Idx → EReal) (wl : Fin 128 → EReal) (bl : EReal) (n : Fin 50000) : EReal :=
  Ideal.logistic ((∑ k : Fin 128, distAt P n k * wl k) + bl)

def left (P : SP.Idx → EReal) : SH.Idx → EReal := fun i => leftAt P (i 0) (i 1)
def right (P : SP.Idx → EReal) : SH.Idx → EReal := fun i => rightAt P (i 0) (i 1)
def dist (P : SP.Idx → EReal) : SH.Idx → EReal := fun i => distAt P (i 0) (i 1)
def sig (P : SP.Idx → EReal) (wl : Fin 128 → EReal) (bl : EReal) : SG.Idx → EReal := fun i => sigAt P wl bl (i 0)

theorem left_ix2 (P : SP.Idx → EReal) (n : Fin 50000) (h : Fin 128) : left P (ix2 n h) = leftAt P n h := rfl
theorem right_ix2 (P : SP.Idx → EReal) (n : Fin 50000) (h : Fin 128) : right P (ix2 n h) = rightAt P n h := rfl
theorem dist_ix2 (P : SP.Idx → EReal) (n : Fin 50000) (h : Fin 128) : dist P (ix2 n h) = distAt P n h := rfl
theorem sig_ix2 (P : SP.Idx → EReal) (wl : Fin 128 → EReal) (bl : EReal) (n : Fin 50000) (u : Fin 1) :
    sig P wl bl (ix2 n u) = sigAt P wl bl n := rfl

end Cert.GraphConv

end
-- ==== Proof.Chain.lean ====
/-
  The kernel program's host stretches and the reference program's matching stages, named once as functions of the
  arguments, so that both programs can be read against the same terms.

  `srcOf` / `dstOf` are the two rows of the edge list.  `aggF x s d` is the neighbourhood sum: the rows of `x`
  gathered at the source indices (an index below zero first moved up by the number of nodes) and scatter-added
  into a zero array at the target indices; it is carried as one opaque function and never opened.  `wslice i` and
  `bslice i` cut layer `i`'s weight matrix and bias row out of the stacked parameters, and `pairs` re-reads the
  node features as rows of adjacent pairs.  `X1`, `X2`, `X3` are the node features after one, two and three layers.
-/
import proofs.«121978_j60224031425326_1_alg».proof.Proof.Gen.KernelIdeal
import proofs.«121978_j60224031425326_1_alg».proof.Proof.Spec
import Idealize.ShloMosaic.Lib.ValueIdx

noncomputable section

namespace Cert.KernelIdeal.Chain

open Cert.KernelIdeal Cert.KernelIdeal.Gen Idealize.ShloMosaic Idealize.ShloMosaic.ValueIdx

/-- The edges' source nodes. -/
def srcOf (ei : (⟨S2x1600000, .i32⟩ : BufTy).Contents (Elt Ideal)) : (⟨S1600000, .i32⟩ : BufTy).Contents (Elt Ideal) :=
  shapeCast S1600000 (extractStridedSlice S1x1600000 ![0, 0] ei slices_S2x1600000_S1x1600000_0_0) shapeCasts_S1x1600000_S1600000

/-- The edges' target nodes. -/
def dstOf (ei : (⟨S2x1600000, .i32⟩ : BufTy).Contents (Elt Ideal)) : (⟨S1600000, .i32⟩ : BufTy).Contents (Elt Ideal) :=
  shapeCast S1600000 (extractStridedSlice S1x1600000 ![1, 0] ei slices_S2x1600000_S1x1600000_1_0) shapeCasts_S1x1600000_S1600000

/-- The neighbourhood sum of `x` along the edges `s → d`. -/
def aggF (x : (⟨S100000x128, .f32⟩ : BufTy).Contents (Elt Ideal)) (s d : (⟨S1600000, .i32⟩ : BufTy).Contents (Elt Ideal)) : (⟨S100000x128, .f32⟩ : BufTy).Contents (Elt Ideal) :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 d)
    (Host.gather gather_S100000x128_S1600000x1_S1600000x128_1_0_n_n_0_1_1128 x
      (broadcastInDim S1600000x1 ![0] bcast_S1600000_S1600000x1_0
        (select (cmpi .slt s (broadcastInDim S1600000 ![] bcast_S_S1600000 (constantI S_ 32 0#32)))
          (addi s (broadcastInDim S1600000 ![] bcast_S_S1600000 (constantI S_ 32 100000#32))) s)))

/-- Layer 1's matrix out of a stack of three. -/
def wslice0 (W : (⟨S3x128x128, .f32⟩ : BufTy).Contents (Elt Ideal)) : (⟨S128x128, .f32⟩ : BufTy).Contents (Elt Ideal) :=
  shapeCast S128x128 (extractStridedSlice S1x128x128 ![0, 0, 0] W slices_S3x128x128_S1x128x128_0_0_0) shapeCasts_S1x128x128_S128x128
/-- Layer 2's. -/
def wslice1 (W : (⟨S3x128x128, .f32⟩ : BufTy).Contents (Elt Ideal)) : (⟨S128x128, .f32⟩ : BufTy).Contents (Elt Ideal) :=
  shapeCast S128x128 (extractStridedSlice S1x128x128 ![1, 0, 0] W slices_S3x128x128_S1x128x128_1_0_0) shapeCasts_S1x128x128_S128x128
/-- Layer 3's. -/
def wslice2 (W : (⟨S3x128x128, .f32⟩ : BufTy).Contents (Elt Ideal)) : (⟨S128x128, .f32⟩ : BufTy).Contents (Elt Ideal) :=
  shapeCast S128x128 (extractStridedSlice S1x128x128 ![2, 0, 0] W slices_S3x128x128_S1x128x128_2_0_0) shapeCasts_S1x128x128_S128x128

/-- Layer 1's bias row out of a stack of three. -/
def bslice0 (B : (⟨S3x128, .f32⟩ : BufTy).Contents (Elt Ideal)) : (⟨S1x128, .f32⟩ : BufTy).Contents (Elt Ideal) :=
  extractStridedSlice S1x128 ![0, 0] B slices_S3x128_S1x128_0_0
/-- Layer 2's. -/
def bslice1 (B : (⟨S3x128, .f32⟩ : BufTy).Contents (Elt Ideal)) : (⟨S1x128, .f32⟩ : BufTy).Contents (Elt Ideal) :=
  extractStridedSlice S1x128 ![1, 0] B slices_S3x128_S1x128_1_0
/-- Layer 3's. -/
def bslice2 (B : (⟨S3x128, .f32⟩ : BufTy).Contents (Elt Ideal)) : (⟨S1x128, .f32⟩ : BufTy).Contents (Elt Ideal) :=
  extractStridedSlice S1x128 ![2, 0] B slices_S3x128_S1x128_2_0

/-- The node features as 50000 rows of an adjacent pair. -/
def pairs (x : (⟨S100000x128, .f32⟩ : BufTy).Contents (Elt Ideal)) : (⟨S50000x256, .f32⟩ : BufTy).Contents (Elt Ideal) :=
  shapeCast S50000x256 x shapeCasts_S100000x128_S50000x256

/-- One layer: the specification's `conv` of the neighbourhood sum and the features, with the matrices read as
    `w[h, k]` and the bias row as `b[0, h]`. -/
def layer (x : (⟨S100000x128, .f32⟩ : BufTy).Contents (Elt Ideal)) (s d : (⟨S1600000, .i32⟩ : BufTy).Contents (Elt Ideal))
    (wr wo : (⟨S128x128, .f32⟩ : BufTy).Contents (Elt Ideal)) (b : (⟨S1x128, .f32⟩ : BufTy).Contents (Elt Ideal)) : (⟨S100000x128, .f32⟩ : BufTy).Contents (Elt Ideal) :=
  Cert.GraphConv.conv (aggF x s d) x (fun h k => wr (ix2 h k)) (fun h k => wo (ix2 h k)) (fun h => b (ix2 0 h))

variable (a0 : (⟨S100000x128, .f32⟩ : BufTy).Contents (Elt Ideal)) (a1 : (⟨S2x1600000, .i32⟩ : BufTy).Contents (Elt Ideal)) (a3 : (⟨S3x128x128, .f32⟩ : BufTy).Contents (Elt Ideal))
  (a4 : (⟨S3x128, .f32⟩ : BufTy).Contents (Elt Ideal)) (a5 : (⟨S3x128x128, .f32⟩ : BufTy).Contents (Elt Ideal))

/-- The features after layer 1. -/
def X1 : (⟨S100000x128, .f32⟩ : BufTy).Contents (Elt Ideal) := layer a0 (srcOf a1) (dstOf a1) (wslice0 a3) (wslice0 a5) (bslice0 a4)
/-- After layer 2. -/
def X2 : (⟨S100000x128, .f32⟩ : BufTy).Contents (Elt Ideal) := layer (X1 a0 a1 a3 a4 a5) (srcOf a1) (dstOf a1) (wslice1 a3) (wslice1 a5) (bslice1 a4)
/-- After layer 3. -/
def X3 : (⟨S100000x128, .f32⟩ : BufTy).Contents (Elt Ideal) := layer (X2 a0 a1 a3 a4 a5) (srcOf a1) (dstOf a1) (wslice2 a3) (wslice2 a5) (bslice2 a4)

end Cert.KernelIdeal.Chain

end
-- ==== Proof.KHostBase.lean ====
/-
  What the kernel program's first host stretch leaves in the buffers region 0 reads and in the buffers later
  stretches read again, in terms of the launch memory: the two rows of the edge list, the neighbourhood sum of the
  input features, layer 1's transposed weight matrices and bias row; the arguments it does not write stay as launched.
-/
import proofs.«121978_j60224031425326_1_alg».proof.Proof.Gen.KernelIdeal.Frame
import proofs.«121978_j60224031425326_1_alg».proof.Proof.Chain
import Idealize.ShloMosaic.Lib.StableHlo.Run

noncomputable section

namespace Cert.KernelIdeal.KHostBase

open Cert.KernelIdeal Cert.KernelIdeal.Gen Cert.KernelIdeal.Chain
open Idealize.ShloMosaic Idealize.ShloMosaic.TcCoe Idealize.SL.Sem Idealize.ShloMosaic.StableHlo

variable (m : (ℓ : Loc nD τ sig) → Buf (Elt Ideal) ℓ) (ρ : Dev nD → PrngReg)

/-! ## Before region 0 -/

theorem W1_v1 (c : Dev nD) : W1 (F := Ideal) m ρ c (Proc.devRef .tc main_v1) = srcOf (m ((c : Thread nD τ).loc main_arg1)) := by
  show StableHlo.after hostOps0 (W0 m ρ c) (Proc.devRef .tc main_v1) = _
  after_results
  rfl

theorem W1_v3 (c : Dev nD) : W1 (F := Ideal) m ρ c (Proc.devRef .tc main_v3) = dstOf (m ((c : Thread nD τ).loc main_arg1)) := by
  show StableHlo.after hostOps0 (W0 m ρ c) (Proc.devRef .tc main_v3) = _
  after_results
  rfl

theorem W1_arg0 (c : Dev nD) : W1 (F := Ideal) m ρ c (Proc.devRef .tc main_arg0) = m ((c : Thread nD τ).loc main_arg0) := by
  show StableHlo.after hostOps0 (W0 m ρ c) (Proc.devRef .tc main_arg0) = _
  after_results

theorem W1_arg3 (c : Dev nD) : W1 (F := Ideal) m ρ c (Proc.devRef .tc main_arg3) = m ((c : Thread nD τ).loc main_arg3) := by
  show StableHlo.after hostOps0 (W0 m ρ c) (Proc.devRef .tc main_arg3) = _
  after_results

theorem W1_arg4 (c : Dev nD) : W1 (F := Ideal) m ρ c (Proc.devRef .tc main_arg4) = m ((c : Thread nD τ).loc main_arg4) := by
  show StableHlo.after hostOps0 (W0 m ρ c) (Proc.devRef .tc main_arg4) = _
  after_results

theorem W1_arg5 (c : Dev nD) : W1 (F := Ideal) m ρ c (Proc.devRef .tc main_arg5) = m ((c : Thread nD τ).loc main_arg5) := by
  show StableHlo.after hostOps0 (W0 m ρ c) (Proc.devRef .tc main_arg5) = _
  after_results

theorem W1_arg6 (c : Dev nD) : W1 (F := Ideal) m ρ c (Proc.devRef .tc main_arg6) = m ((c : Thread nD τ).loc main_arg6) := by
  show StableHlo.after hostOps0 (W0 m ρ c) (Proc.devRef .tc main_arg6) = _
  after_results

theorem W1_arg7 (c : Dev nD) : W1 (F := Ideal) m ρ c (Proc.devRef .tc main_arg7) = m ((c : Thread nD τ).loc main_arg7) := by
  show StableHlo.after hostOps0 (W0 m ρ c) (Proc.devRef .tc main_arg7) = _
  after_results

set_option maxHeartbeats 2000000 in
/-- The aggregated features region 0 reads. -/
theorem W1_v13 (c : Dev nD) :
    W1 (F := Ideal) m ρ c (Proc.devRef .tc main_v13) = aggF (m ((c : Thread nD τ).loc main_arg0)) (srcOf (m ((c : Thread nD τ).loc main_arg1))) (dstOf (m ((c : Thread nD τ).loc main_arg1))) := by
  show StableHlo.after hostOps0 (W0 m ρ c) (Proc.devRef .tc main_v13) = _
  after_results
  rfl

theorem W1_v16 (c : Dev nD) :
    W1 (F := Ideal) m ρ c (Proc.devRef .tc main_v16) = transpose S128x128 [1, 0] (wslice0 (m ((c : Thread nD τ).loc main_arg3))) transposes_S128x128_S128x128_1_0 := by
  show StableHlo.after hostOps0 (W0 m ρ c) (Proc.devRef .tc main_v16) = _
  after_results
  rfl

theorem W1_v19 (c : Dev nD) :
    W1 (F := Ideal) m ρ c (Proc.devRef .tc main_v19) = transpose S128x128 [1, 0] (wslice0 (m ((c : Thread nD τ).loc main_arg5))) transposes_S128x128_S128x128_1_0 := by
  show StableHlo.after hostOps0 (W0 m ρ c) (Proc.devRef .tc main_v19) = _
  after_results
  rfl

theorem W1_v22 (c : Dev nD) :
    W1 (F := Ideal) m ρ c (Proc.devRef .tc main_v22) = shapeCast S1x128 (shapeCast S128 (bslice0 (m ((c : Thread nD τ).loc main_arg4))) shapeCasts_S1x128_S128) shapeCasts_S128_S1x128 := by
  show StableHlo.after hostOps0 (W0 m ρ c) (Proc.devRef .tc main_v22) = _
  after_results
  rfl

end Cert.KernelIdeal.KHostBase

end
-- ==== Proof.KCarry.lean ====
import proofs.«121978_j60224031425326_1_alg».proof.Proof.KHostBase

noncomputable section

namespace Cert.KernelIdeal.KCarry

open Cert.KernelIdeal Cert.KernelIdeal.Gen Cert.KernelIdeal.Chain Cert.KernelIdeal.KHostBase
open Idealize.ShloMosaic Idealize.ShloMosaic.TcCoe Idealize.SL.Sem Idealize.ShloMosaic.StableHlo

variable (m : (ℓ : Loc nD τ sig) → Buf (Elt Ideal) ℓ) (ρ : Dev nD → PrngReg)

/-! ## At region 0's exit -/

theorem W2_v1 (c : Dev nD) : W2 (F := Ideal) m ρ c (Proc.devRef .tc main_v1) = srcOf (m ((c : Thread nD τ).loc main_arg1)) := by
  rw [W2_of_ne m ρ c main_v1 (by decide)]
  exact W1_v1 m ρ c

theorem W2_v3 (c : Dev nD) : W2 (F := Ideal) m ρ c (Proc.devRef .tc main_v3) = dstOf (m ((c : Thread nD τ).loc main_arg1)) := by
  rw [W2_of_ne m ρ c main_v3 (by decide)]
  exact W1_v3 m ρ c

theorem W2_arg3 (c : Dev nD) : W2 (F := Ideal) m ρ c (Proc.devRef .tc main_arg3) = m ((c : Thread nD τ).loc main_arg3) := by
  rw [W2_of_ne m ρ c main_arg3 (by decide)]
  exact W1_arg3 m ρ c

theorem W2_arg4 (c : Dev nD) : W2 (F := Ideal) m ρ c (Proc.devRef .tc main_arg4) = m ((c : Thread nD τ).loc main_arg4) := by
  rw [W2_of_ne m ρ c main_arg4 (by decide)]
  exact W1_arg4 m ρ c

theorem W2_arg5 (c : Dev nD) : W2 (F := Ideal) m ρ c (Proc.devRef .tc main_arg5) = m ((c : Thread nD τ).loc main_arg5) := by
  rw [W2_of_ne m ρ c main_arg5 (by decide)]
  exact W1_arg5 m ρ c

theorem W2_arg6 (c : Dev nD) : W2 (F := Ideal) m ρ c (Proc.devRef .tc main_arg6) = m ((c : Thread nD τ).loc main_arg6) := by
  rw [W2_of_ne m ρ c main_arg6 (by decide)]
  exact W1_arg6 m ρ c

theorem W2_arg7 (c : Dev nD) : W2 (F := Ideal) m ρ c (Proc.devRef .tc main_arg7) = m ((c : Thread nD τ).loc main_arg7) := by
  rw [W2_of_ne m ρ c main_arg7 (by decide)]
  exact W1_arg7 m ρ c

/-! ## At region 1's exit -/

theorem W4_v1 (c : Dev nD) : W4 (F := Ideal) m ρ c (Proc.devRef .tc main_v1) = srcOf (m ((c : Thread nD τ).loc main_arg1)) := by
  rw [W4_of_ne m ρ c main_v1 (by decide)]
  show StableHlo.after hostOps1 (W2 m ρ c) (Proc.devRef .tc main_v1) = _
  after_results
  exact W2_v1 m ρ c

theorem W4_v3 (c : Dev nD) : W4 (F := Ideal) m ρ c (Proc.devRef .tc main_v3) = dstOf (m ((c : Thread nD τ).loc main_arg1)) := by
  rw [W4_of_ne m ρ c main_v3 (by decide)]
  show StableHlo.after hostOps1 (W2 m ρ c) (Proc.devRef .tc main_v3) = _
  after_results
  exact W2_v3 m ρ c

theorem W4_arg3 (c : Dev nD) : W4 (F := Ideal) m ρ c (Proc.devRef .tc main_arg3) = m ((c : Thread nD τ).loc main_arg3) := by
  rw [W4_of_ne m ρ c main_arg3 (by decide)]
  show StableHlo.after hostOps1 (W2 m ρ c) (Proc.devRef .tc main_arg3) = _
  after_results
  exact W2_arg3 m ρ c

theorem W4_arg4 (c : Dev nD) : W4 (F := Ideal) m ρ c (Proc.devRef .tc main_arg4) = m ((c : Thread nD τ).loc main_arg4) := by
  rw [W4_of_ne m ρ c main_arg4 (by decide)]
  show StableHlo.after hostOps1 (W2 m ρ c) (Proc.devRef .tc main_arg4) = _
  after_results
  exact W2_arg4 m ρ c

theorem W4_arg5 (c : Dev nD) : W4 (F := Ideal) m ρ c (Proc.devRef .tc main_arg5) = m ((c : Thread nD τ).loc main_arg5) := by
  rw [W4_of_ne m ρ c main_arg5 (by decide)]
  show StableHlo.after hostOps1 (W2 m ρ c) (Proc.devRef .tc main_arg5) = _
  after_results
  exact W2_arg5 m ρ c

theorem W4_arg6 (c : Dev nD) : W4 (F := Ideal) m ρ c (Proc.devRef .tc main_arg6) = m ((c : Thread nD τ).loc main_arg6) := by
  rw [W4_of_ne m ρ c main_arg6 (by decide)]
  show StableHlo.after hostOps1 (W2 m ρ c) (Proc.devRef .tc main_arg6) = _
  after_results
  exact W2_arg6 m ρ c

theorem W4_arg7 (c : Dev nD) : W4 (F := Ideal) m ρ c (Proc.devRef .tc main_arg7) = m ((c : Thread nD τ).loc main_arg7) := by
  rw [W4_of_ne m ρ c main_arg7 (by decide)]
  show StableHlo.after hostOps1 (W2 m ρ c) (Proc.devRef .tc main_arg7) = _
  after_results
  exact W2_arg7 m ρ c

/-! ## At region 2's exit -/

theorem W6_arg6 (c : Dev nD) : W6 (F := Ideal) m ρ c (Proc.devRef .tc main_arg6) = m ((c : Thread nD τ).loc main_arg6) := by
  rw [W6_of_ne m ρ c main_arg6 (by decide)]
  show StableHlo.after hostOps2 (W4 m ρ c) (Proc.devRef .tc main_arg6) = _
  after_results
  exact W4_arg6 m ρ c

theorem W6_arg7 (c : Dev nD) : W6 (F := Ideal) m ρ c (Proc.devRef .tc main_arg7) = m ((c : Thread nD τ).loc main_arg7) := by
  rw [W6_of_ne m ρ c main_arg7 (by decide)]
  show StableHlo.after hostOps2 (W4 m ρ c) (Proc.devRef .tc main_arg7) = _
  after_results
  exact W4_arg7 m ρ c

end Cert.KernelIdeal.KCarry

end
-- ==== Proof.KHost.lean ====
/-
  What the kernel program's later host stretches leave in the buffers regions 1, 2 and 3 read: the neighbourhood
  sum of the previous layer's features, the layer's transposed weight matrices and bias row; and, before the last
  region, the pair rows and the read-out parameters.
-/
import proofs.«121978_j60224031425326_1_alg».proof.Proof.KCarry

noncomputable section

namespace Cert.KernelIdeal.KHost

open Cert.KernelIdeal Cert.KernelIdeal.Gen Cert.KernelIdeal.Chain Cert.KernelIdeal.KHostBase Cert.KernelIdeal.KCarry
open Idealize.ShloMosaic Idealize.ShloMosaic.TcCoe Idealize.SL.Sem Idealize.ShloMosaic.StableHlo

variable (m : (ℓ : Loc nD τ sig) → Buf (Elt Ideal) ℓ) (ρ : Dev nD → PrngReg)

/-! ## Before region 1 -/

/-- The previous layer's features pass through the stretch unchanged. -/
theorem W3_v23 (c : Dev nD) : W3 (F := Ideal) m ρ c (Proc.devRef .tc main_v23) = W2 m ρ c (Proc.devRef .tc main_v23) := by
  show StableHlo.after hostOps1 (W2 m ρ c) (Proc.devRef .tc main_v23) = _
  after_results

set_option maxHeartbeats 2000000 in
/-- The aggregated features region 1 reads: the neighbourhood sum of the previous layer's features. -/
theorem W3_v33 (c : Dev nD) :
    W3 (F := Ideal) m ρ c (Proc.devRef .tc main_v33) = aggF (W2 m ρ c (Proc.devRef .tc main_v23)) (srcOf (m ((c : Thread nD τ).loc main_arg1))) (dstOf (m ((c : Thread nD τ).loc main_arg1))) := by
  show StableHlo.after hostOps1 (W2 m ρ c) (Proc.devRef .tc main_v33) = _
  after_results
  rw [W2_v1 m ρ c, W2_v3 m ρ c]
  rfl

/-- Layer 2's first weight matrix, transposed. -/
theorem W3_v36 (c : Dev nD) :
    W3 (F := Ideal) m ρ c (Proc.devRef .tc main_v36) = transpose S128x128 [1, 0] (wslice1 (m ((c : Thread nD τ).loc main_arg3))) transposes_S128x128_S128x128_1_0 := by
  show StableHlo.after hostOps1 (W2 m ρ c) (Proc.devRef .tc main_v36) = _
  after_results
  rw [W2_arg3 m ρ c]
  rfl

/-- Layer 2's second weight matrix, transposed. -/
theorem W3_v39 (c : Dev nD) :
    W3 (F := Ideal) m ρ c (Proc.devRef .tc main_v39) = transpose S128x128 [1, 0] (wslice1 (m ((c : Thread nD τ).loc main_arg5))) transposes_S128x128_S128x128_1_0 := by
  show StableHlo.after hostOps1 (W2 m ρ c) (Proc.devRef .tc main_v39) = _
  after_results
  rw [W2_arg5 m ρ c]
  rfl

/-- Layer 2's bias row. -/
theorem W3_v42 (c : Dev nD) :
    W3 (F := Ideal) m ρ c (Proc.devRef .tc main_v42) = shapeCast S1x128 (shapeCast S128 (bslice1 (m ((c : Thread nD τ).loc main_arg4))) shapeCasts_S1x128_S128) shapeCasts_S128_S1x128 := by
  show StableHlo.after hostOps1 (W2 m ρ c) (Proc.devRef .tc main_v42) = _
  after_results
  rw [W2_arg4 m ρ c]
  rfl

/-! ## Before region 2 -/

/-- The previous layer's features pass through the stretch unchanged. -/
theorem W5_v43 (c : Dev nD) : W5 (F := Ideal) m ρ c (Proc.devRef .tc main_v43) = W4 m ρ c (Proc.devRef .tc main_v43) := by
  show StableHlo.after hostOps2 (W4 m ρ c) (Proc.devRef .tc main_v43) = _
  after_results

set_option maxHeartbeats 2000000 in
/-- The aggregated features region 2 reads: the neighbourhood sum of the previous layer's features. -/
theorem W5_v53 (c : Dev nD) :
    W5 (F := Ideal) m ρ c (Proc.devRef .tc main_v53) = aggF (W4 m ρ c (Proc.devRef .tc main_v43)) (srcOf (m ((c : Thread nD τ).loc main_arg1))) (dstOf (m ((c : Thread nD τ).loc main_arg1))) := by
  show StableHlo.after hostOps2 (W4 m ρ c) (Proc.devRef .tc main_v53) = _
  after_results
  rw [W4_v1 m ρ c, W4_v3 m ρ c]
  rfl

/-- Layer 3's first weight matrix, transposed. -/
theorem W5_v56 (c : Dev nD) :
    W5 (F := Ideal) m ρ c (Proc.devRef .tc main_v56) = transpose S128x128 [1, 0] (wslice2 (m ((c : Thread nD τ).loc main_arg3))) transposes_S128x128_S128x128_1_0 := by
  show StableHlo.after hostOps2 (W4 m ρ c) (Proc.devRef .tc main_v56) = _
  after_results
  rw [W4_arg3 m ρ c]
  rfl

/-- Layer 3's second weight matrix, transposed. -/
theorem W5_v59 (c : Dev nD) :
    W5 (F := Ideal) m ρ c (Proc.devRef .tc main_v59) = transpose S128x128 [1, 0] (wslice2 (m ((c : Thread nD τ).loc main_arg5))) transposes_S128x128_S128x128_1_0 := by
  show StableHlo.after hostOps2 (W4 m ρ c) (Proc.devRef .tc main_v59) = _
  after_results
  rw [W4_arg5 m ρ c]
  rfl

/-- Layer 3's bias row. -/
theorem W5_v62 (c : Dev nD) :
    W5 (F := Ideal) m ρ c (Proc.devRef .tc main_v62) = shapeCast S1x128 (shapeCast S128 (bslice2 (m ((c : Thread nD τ).loc main_arg4))) shapeCasts_S1x128_S128) shapeCasts_S128_S1x128 := by
  show StableHlo.after hostOps2 (W4 m ρ c) (Proc.devRef .tc main_v62) = _
  after_results
  rw [W4_arg4 m ρ c]
  rfl

/-! ## Before region 3 -/

/-- The pair rows region 3 reads: the last layer's features re-read as rows of two nodes. -/
theorem W7_v64 (c : Dev nD) : W7 (F := Ideal) m ρ c (Proc.devRef .tc main_v64) = pairs (W6 m ρ c (Proc.devRef .tc main_v63)) := by
  show StableHlo.after hostOps3 (W6 m ρ c) (Proc.devRef .tc main_v64) = _
  after_results
  rfl

/-- The read-out weights as a column. -/
theorem W7_v65 (c : Dev nD) :
    W7 (F := Ideal) m ρ c (Proc.devRef .tc main_v65) = transpose S128x1 [1, 0] (m ((c : Thread nD τ).loc main_arg6)) transposes_S1x128_S128x1_1_0 := by
  show StableHlo.after hostOps3 (W6 m ρ c) (Proc.devRef .tc main_v65) = _
  after_results
  rw [W6_arg6 m ρ c]

/-- The read-out bias as a 1 x 1 matrix. -/
theorem W7_v66 (c : Dev nD) :
    W7 (F := Ideal) m ρ c (Proc.devRef .tc main_v66) = shapeCast S1x1 (m ((c : Thread nD τ).loc main_arg7)) shapeCasts_S1_S1x1 := by
  show StableHlo.after hostOps3 (W6 m ρ c) (Proc.devRef .tc main_v66) = _
  after_results
  rw [W6_arg7 m ρ c]
  rfl

end Cert.KernelIdeal.KHost

end
-- ==== Proof.KConv0.lean ====
/-
  Region 0 of the kernel's program (the first graph-convolution layer's dense part), as a whole array.
-/
import proofs.«121978_j60224031425326_1_alg».proof.Proof.Gen.KernelIdeal.Frame
import proofs.«121978_j60224031425326_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KConv0

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-! ## The block product at an index -/

/-- The left operand of the block product is read in the output's row … -/
theorem lhs_mm_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- … at the contraction position; -/
theorem lhs_mm_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- the right operand in the row the contraction position names … -/
theorem rhs_mm_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- … and the output's column. -/
theorem rhs_mm_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A 2000 x 128 block times a 128 x 128 matrix into the zero accumulator, at row `p` and column `q`: the sum over
    `k` of the block's `(p, k)` entry times the matrix's `(k, q)` entry. -/
theorem mm_apply {φ₁ φ₂ : FTy} (A : FVec Ideal S2000x128 φ₁) (W : FVec Ideal S128x128 φ₂) (p : Fin 2000) (q : Fin 128) :
    FloatOps.matmul dot_S2000x128_S128x128_S2000x128_1_0_0_1_n_n none A W (constant S2000x128 .f32 0x00000000#32) (ix2 p q)
      = ∑ k : Fin 128, A (ix2 p k) * W (ix2 k q) := by
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs_mm_0 _ _
    | ⟨1, _⟩ => exact (lhs_mm_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs_mm_0 _ _).trans hk
    | ⟨1, _⟩ => exact rhs_mm_1 _ _)
  rw [el, er]

/-! ## The body's arithmetic at an index -/

/-- What the body stores at row `p`, column `q` of its output block, from its five loaded blocks: the two block
    products, the bias row under every row, and the maximum with zero. -/
theorem pay_apply (x0 x1 : Vec Ideal S2000x128 .f32) (x2 x3 : Vec Ideal S128x128 .f32) (x4 : Vec Ideal S1x128 .f32)
    (p : Fin 2000) (q : Fin 128) :
    k0_pay1 x0 x1 x2 x3 x4 (ix2 p q)
      = max ((∑ k : Fin 128, x0 (ix2 p k) * x2 (ix2 k q)) + (∑ k : Fin 128, x1 (ix2 p k) * x3 (ix2 k q)) + x4 (ix2 0 q)) 0 := by
  unfold k0_pay1
  simp only [shapeCast_self, matmul]
  rw [maximumf_apply, addf_apply, addf_apply, mm_apply, mm_apply, broadcastTo_1b_ab_apply, broadcast_apply]
  simp only [truncf_apply]
  show max _ (Ideal.ofBits .f32 0x00000000#32) = _
  rw [Ideal.ofBits_zero_f32]

/-! ## From the blocks to the arrays -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: at point `t` the two feature windows and the output window are on row
    block `t`, and the weights' and the bias's windows stay on their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of row block `t` is row `2000 t + p` of the array. -/
def rowOf (t : Fin cfg0.N) (p : Fin 2000) : Fin 100000 :=
  ⟨t.val * 2000 + p.val, by have h : t.val < 50 := lt_of_lt_of_eq t.isLt N_0; have := p.isLt; omega⟩

/-- The aggregated features' block at point `t` is rows `2000 t …` of their array. -/
theorem blk0_apply (c : Dev nD) (t : Fin cfg0.N) (p : Fin 2000) (k : Fin 128) :
    iblk0 V c 0 t (ix2 p k) = V c main_v13 (ix2 (rowOf t p) k) := by
  obtain ⟨e00, e01, e10, e11, e20, e21, e30, e31, e40, e41, e50, e51⟩ := idx_facts t
  show V c main_v13 (((cfg0.win 0).blk t).view.emb (ix2 p k)) = V c main_v13 (ix2 (rowOf t p) k)
  refine congrArg (V c main_v13) (funext fun a => Fin.ext ?_)
  match a with
  | ⟨0, _⟩ => show win0_0.index t (0 : Fin 2) * 2000 + 1 * p.val = t.val * 2000 + p.val; omega
  | ⟨1, _⟩ => show win0_0.index t (1 : Fin 2) * 128 + 1 * k.val = k.val; omega

/-- The node features' block at point `t` is the same rows of their array. -/
theorem blk1_apply (c : Dev nD) (t : Fin cfg0.N) (p : Fin 2000) (k : Fin 128) :
    iblk0 V c 1 t (ix2 p k) = V c main_arg0 (ix2 (rowOf t p) k) := by
  obtain ⟨e00, e01, e10, e11, e20, e21, e30, e31, e40, e41, e50, e51⟩ := idx_facts t
  show V c main_arg0 (((cfg0.win 1).blk t).view.emb (ix2 p k)) = V c main_arg0 (ix2 (rowOf t p) k)
  refine congrArg (V c main_arg0) (funext fun a => Fin.ext ?_)
  match a with
  | ⟨0, _⟩ => show win0_1.index t (0 : Fin 2) * 2000 + 1 * p.val = t.val * 2000 + p.val; omega
  | ⟨1, _⟩ => show win0_1.index t (1 : Fin 2) * 128 + 1 * k.val = k.val; omega

/-- The first weight matrix's block is the whole matrix at every point. -/
theorem blk2_apply (c : Dev nD) (t : Fin cfg0.N) (k : Fin 128) (q : Fin 128) :
    iblk0 V c 2 t (ix2 k q) = V c main_v16 (ix2 k q) := by
  obtain ⟨e00, e01, e10, e11, e20, e21, e30, e31, e40, e41, e50, e51⟩ := idx_facts t
  show V c main_v16 (((cfg0.win 2).blk t).view.emb (ix2 k q)) = V c main_v16 (ix2 k q)
  refine congrArg (V c main_v16) (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega

/-- So is the second weight matrix's. -/
theorem blk3_apply (c : Dev nD) (t : Fin cfg0.N) (k : Fin 128) (q : Fin 128) :
    iblk0 V c 3 t (ix2 k q) = V c main_v19 (ix2 k q) := by
  obtain ⟨e00, e01, e10, e11, e20, e21, e30, e31, e40, e41, e50, e51⟩ := idx_facts t
  show V c main_v19 (((cfg0.win 3).blk t).view.emb (ix2 k q)) = V c main_v19 (ix2 k q)
  refine congrArg (V c main_v19) (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega

/-- And the bias row's block is the whole row. -/
theorem blk4_apply (c : Dev nD) (t : Fin cfg0.N) (u : Fin 1) (q : Fin 128) :
    iblk0 V c 4 t (ix2 u q) = V c main_v22 (ix2 u q) := by
  obtain ⟨e00, e01, e10, e11, e20, e21, e30, e31, e40, e41, e50, e51⟩ := idx_facts t
  show V c main_v22 (((cfg0.win 4).blk t).view.emb (ix2 u q)) = V c main_v22 (ix2 u q)
  refine congrArg (V c main_v22) (funext fun a => Fin.ext ?_)
  match a with
  | ⟨0, _⟩ => show win0_4.index t (0 : Fin 2) * 1 + 1 * u.val = u.val; omega
  | ⟨1, _⟩ => show win0_4.index t (1 : Fin 2) * 128 + 1 * q.val = q.val; omega

/-- Where the output block's entry `(p, q)` sits in the output array at point `t`. -/
theorem emb5_apply (t : Fin cfg0.N) (p : Fin 2000) (q : Fin 128) :
    ((cfg0.win 5).blk t).view.emb (ix2 p q) = ix2 (rowOf t p) q := by
  obtain ⟨e00, e01, e10, e11, e20, e21, e30, e31, e40, e41, e50, e51⟩ := idx_facts t
  refine funext fun a => Fin.ext ?_
  match a with
  | ⟨0, _⟩ => show win0_5.index t (0 : Fin 2) * 2000 + 1 * p.val = t.val * 2000 + p.val; omega
  | ⟨1, _⟩ => show win0_5.index t (1 : Fin 2) * 128 + 1 * q.val = q.val; omega

/-- WHAT POINT `t` WRITES BACK is block `t` of one layer of the specification applied to the arrays the region found. -/
theorem flushed_eq (c : Dev nD) (t : Fin cfg0.N) :
    (dat0 (F := Ideal) V c).flushed 5 t = ((cfg0.win 5).blk t).view.read (Elt Ideal)
      (Cert.GraphConv.conv (V c main_v13) (V c main_arg0)
        (fun h k => V c main_v16 (ix2 k h)) (fun h k => V c main_v19 (ix2 k h)) (fun h => V c main_v22 (ix2 0 h))) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x128) hz, View.ld_unit_zero (S := S1x128) hz]
  funext j
  obtain ⟨p, q, rfl⟩ : ∃ (p : Fin 2000) (q : Fin 128), j = ix2 p q := ⟨j 0, j 1, eq_ix2 j⟩
  show k0_pay1 (iblk0 V c 0 t) (iblk0 V c 1 t) (iblk0 V c 2 t) (iblk0 V c 3 t) (iblk0 V c 4 t) (ix2 p q)
      = Cert.GraphConv.conv (V c main_v13) (V c main_arg0) (fun h k => V c main_v16 (ix2 k h))
          (fun h k => V c main_v19 (ix2 k h)) (fun h => V c main_v22 (ix2 0 h)) (((cfg0.win 5).blk t).view.emb (ix2 p q))
  rw [emb5_apply, Cert.GraphConv.conv_ix2]
  refine (pay_apply (iblk0 V c 0 t) (iblk0 V c 1 t) (iblk0 V c 2 t) (iblk0 V c 3 t) (iblk0 V c 4 t) p q).trans ?_
  unfold Cert.GraphConv.convAt
  refine (congrArg (fun z => max z 0) (add_right_comm _ _ _)).trans ?_
  refine congrArg (fun z => max z 0) ?_
  refine congrArg₂ (· + ·) (congrArg₂ (· + ·) (Finset.sum_congr rfl fun k _ => ?_) ?_) (Finset.sum_congr rfl fun k _ => ?_)
  · exact congrArg₂ (· * ·) (blk0_apply V c t p k) (blk2_apply V c t k q)
  · exact blk4_apply V c t 0 q
  · exact congrArg₂ (· * ·) (blk1_apply V c t p k) (blk3_apply V c t k q)

/-- An index of the array is in point `t`'s block iff each coordinate is in the block's range on its axis. -/
theorem mem_blk (t : Fin cfg0.N) (i : S100000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v23).slice (win0_5.rect t)).set ↔ _
  rw [View.set_slice_whole, Rect.mem_set_unit]
  exact Iff.rfl

/-- Every index of the output array is in some point's block: row `r` is in row block `r / 2000`, and every block
    has all 128 columns. -/
theorem cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : grid0.N = 50 := N_0
  let t : Fin cfg0.N := ⟨(i 0).val / 2000, by show (i 0).val / 2000 < grid0.N; omega⟩
  obtain ⟨e00, e01, e10, e11, e20, e21, e30, e31, e40, e41, e50, e51⟩ := idx_facts t
  have ht : t.val = (i 0).val / 2000 := rfl
  refine ⟨t, flush0_5 t, ?_⟩
  rw [mem_blk]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 128 ≤ (i 1).val ∧ (i 1).val < win0_5.index t (1 : Fin 2) * 128 + 128; omega

/-- After region 0 its output array is one layer of the specification applied to the arrays the region found:
    the aggregated features (window 0), the node features (window 1), the two transposed weight matrices
    (windows 2 and 3, read as `w[k, h]`) and the bias row (window 4). -/
theorem final0 (c : Dev nD) :
    (dat0 (F := Ideal) V c).arrAt 5 cfg0.N
      = Cert.GraphConv.conv (V c main_v13) (V c main_arg0)
          (fun h k => V c main_v16 (ix2 k h)) (fun h k => V c main_v19 (ix2 k h)) (fun h => V c main_v22 (ix2 0 h)) :=
  (dat0 (F := Ideal) V c).arrAt_eq_of_cover 5
    (Cert.GraphConv.conv (V c main_v13) (V c main_arg0)
      (fun h k => V c main_v16 (ix2 k h)) (fun h k => V c main_v19 (ix2 k h)) (fun h => V c main_v22 (ix2 0 h)))
    (fun t _ => flushed_eq V c t) cover

end Cert.KernelIdeal.KConv0

end
-- ==== Proof.KConv1.lean ====
/-
  Region 1 of the kernel's program (the second graph-convolution layer's dense part), as a whole array.
-/
import proofs.«121978_j60224031425326_1_alg».proof.Proof.Gen.KernelIdeal.Frame
import proofs.«121978_j60224031425326_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KConv1

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-! ## The block product at an index -/

/-- The left operand of the block product is read in the output's row … -/
theorem lhs_mm_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- … at the contraction position; -/
theorem lhs_mm_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- the right operand in the row the contraction position names … -/
theorem rhs_mm_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- … and the output's column. -/
theorem rhs_mm_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A 2000 x 128 block times a 128 x 128 matrix into the zero accumulator, at row `p` and column `q`: the sum over
    `k` of the block's `(p, k)` entry times the matrix's `(k, q)` entry. -/
theorem mm_apply {φ₁ φ₂ : FTy} (A : FVec Ideal S2000x128 φ₁) (W : FVec Ideal S128x128 φ₂) (p : Fin 2000) (q : Fin 128) :
    FloatOps.matmul dot_S2000x128_S128x128_S2000x128_1_0_0_1_n_n none A W (constant S2000x128 .f32 0x00000000#32) (ix2 p q)
      = ∑ k : Fin 128, A (ix2 p k) * W (ix2 k q) := by
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs_mm_0 _ _
    | ⟨1, _⟩ => exact (lhs_mm_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs_mm_0 _ _).trans hk
    | ⟨1, _⟩ => exact rhs_mm_1 _ _)
  rw [el, er]

/-! ## The body's arithmetic at an index -/

/-- What the body stores at row `p`, column `q` of its output block, from its five loaded blocks: the two block
    products, the bias row under every row, and the maximum with zero. -/
theorem pay_apply (x0 x1 : Vec Ideal S2000x128 .f32) (x2 x3 : Vec Ideal S128x128 .f32) (x4 : Vec Ideal S1x128 .f32)
    (p : Fin 2000) (q : Fin 128) :
    k1_pay1 x0 x1 x2 x3 x4 (ix2 p q)
      = max ((∑ k : Fin 128, x0 (ix2 p k) * x2 (ix2 k q)) + (∑ k : Fin 128, x1 (ix2 p k) * x3 (ix2 k q)) + x4 (ix2 0 q)) 0 := by
  unfold k1_pay1
  simp only [shapeCast_self, matmul]
  rw [maximumf_apply, addf_apply, addf_apply, mm_apply, mm_apply, broadcastTo_1b_ab_apply, broadcast_apply]
  simp only [truncf_apply]
  show max _ (Ideal.ofBits .f32 0x00000000#32) = _
  rw [Ideal.ofBits_zero_f32]

/-! ## From the blocks to the arrays -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: at point `t` the two feature windows and the output window are on row
    block `t`, and the weights' and the bias's windows stay on their one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of row block `t` is row `2000 t + p` of the array. -/
def rowOf (t : Fin cfg1.N) (p : Fin 2000) : Fin 100000 :=
  ⟨t.val * 2000 + p.val, by have h : t.val < 50 := lt_of_lt_of_eq t.isLt N_1; have := p.isLt; omega⟩

/-- The aggregated features' block at point `t` is rows `2000 t …` of their array. -/
theorem blk0_apply (c : Dev nD) (t : Fin cfg1.N) (p : Fin 2000) (k : Fin 128) :
    iblk1 V c 0 t (ix2 p k) = V c main_v33 (ix2 (rowOf t p) k) := by
  obtain ⟨e00, e01, e10, e11, e20, e21, e30, e31, e40, e41, e50, e51⟩ := idx_facts t
  show V c main_v33 (((cfg1.win 0).blk t).view.emb (ix2 p k)) = V c main_v33 (ix2 (rowOf t p) k)
  refine congrArg (V c main_v33) (funext fun a => Fin.ext ?_)
  match a with
  | ⟨0, _⟩ => show win1_0.index t (0 : Fin 2) * 2000 + 1 * p.val = t.val * 2000 + p.val; omega
  | ⟨1, _⟩ => show win1_0.index t (1 : Fin 2) * 128 + 1 * k.val = k.val; omega

/-- The node features' block at point `t` is the same rows of their array. -/
theorem blk1_apply (c : Dev nD) (t : Fin cfg1.N) (p : Fin 2000) (k : Fin 128) :
    iblk1 V c 1 t (ix2 p k) = V c main_v23 (ix2 (rowOf t p) k) := by
  obtain ⟨e00, e01, e10, e11, e20, e21, e30, e31, e40, e41, e50, e51⟩ := idx_facts t
  show V c main_v23 (((cfg1.win 1).blk t).view.emb (ix2 p k)) = V c main_v23 (ix2 (rowOf t p) k)
  refine congrArg (V c main_v23) (funext fun a => Fin.ext ?_)
  match a with
  | ⟨0, _⟩ => show win1_1.index t (0 : Fin 2) * 2000 + 1 * p.val = t.val * 2000 + p.val; omega
  | ⟨1, _⟩ => show win1_1.index t (1 : Fin 2) * 128 + 1 * k.val = k.val; omega

/-- The first weight matrix's block is the whole matrix at every point. -/
theorem blk2_apply (c : Dev nD) (t : Fin cfg1.N) (k : Fin 128) (q : Fin 128) :
    iblk1 V c 2 t (ix2 k q) = V c main_v36 (ix2 k q) := by
  obtain ⟨e00, e01, e10, e11, e20, e21, e30, e31, e40, e41, e50, e51⟩ := idx_facts t
  show V c main_v36 (((cfg1.win 2).blk t).view.emb (ix2 k q)) = V c main_v36 (ix2 k q)
  refine congrArg (V c main_v36) (funext fun a => Fin.ext ?_)
  match a with
  | ⟨0, _⟩ => show win1_2.index t (0 : Fin 2) * 128 + 1 * k.val = k.val; omega
  | ⟨1, _⟩ => show win1_2.index t (1 : Fin 2) * 128 + 1 * q.val = q.val; omega

/-- So is the second weight matrix's. -/
theorem blk3_apply (c : Dev nD) (t : Fin cfg1.N) (k : Fin 128) (q : Fin 128) :
    iblk1 V c 3 t (ix2 k q) = V c main_v39 (ix2 k q) := by
  obtain ⟨e00, e01, e10, e11, e20, e21, e30, e31, e40, e41, e50, e51⟩ := idx_facts t
  show V c main_v39 (((cfg1.win 3).blk t).view.emb (ix2 k q)) = V c main_v39 (ix2 k q)
  refine congrArg (V c main_v39) (funext fun a => Fin.ext ?_)
  match a with
  | ⟨0, _⟩ => show win1_3.index t (0 : Fin 2) * 128 + 1 * k.val = k.val; omega
  | ⟨1, _⟩ => show win1_3.index t (1 : Fin 2) * 128 + 1 * q.val = q.val; omega

/-- And the bias row's block is the whole row. -/
theorem blk4_apply (c : Dev nD) (t : Fin cfg1.N) (u : Fin 1) (q : Fin 128) :
    iblk1 V c 4 t (ix2 u q) = V c main_v42 (ix2 u q) := by
  obtain ⟨e00, e01, e10, e11, e20, e21, e30, e31, e40, e41, e50, e51⟩ := idx_facts t
  show V c main_v42 (((cfg1.win 4).blk t).view.emb (ix2 u q)) = V c main_v42 (ix2 u q)
  refine congrArg (V c main_v42) (funext fun a => Fin.ext ?_)
  match a with
  | ⟨0, _⟩ => show win1_4.index t (0 : Fin 2) * 1 + 1 * u.val = u.val; omega
  | ⟨1, _⟩ => show win1_4.index t (1 : Fin 2) * 128 + 1 * q.val = q.val; omega

/-- Where the output block's entry `(p, q)` sits in the output array at point `t`. -/
theorem emb5_apply (t : Fin cfg1.N) (p : Fin 2000) (q : Fin 128) :
    ((cfg1.win 5).blk t).view.emb (ix2 p q) = ix2 (rowOf t p) q := by
  obtain ⟨e00, e01, e10, e11, e20, e21, e30, e31, e40, e41, e50, e51⟩ := idx_facts t
  refine funext fun a => Fin.ext ?_
  match a with
  | ⟨0, _⟩ => show win1_5.index t (0 : Fin 2) * 2000 + 1 * p.val = t.val * 2000 + p.val; omega
  | ⟨1, _⟩ => show win1_5.index t (1 : Fin 2) * 128 + 1 * q.val = q.val; omega

/-- WHAT POINT `t` WRITES BACK is block `t` of one layer of the specification applied to the arrays the region found. -/
theorem flushed_eq (c : Dev nD) (t : Fin cfg1.N) :
    (dat1 (F := Ideal) V c).flushed 5 t = ((cfg1.win 5).blk t).view.read (Elt Ideal)
      (Cert.GraphConv.conv (V c main_v33) (V c main_v23)
        (fun h k => V c main_v36 (ix2 k h)) (fun h k => V c main_v39 (ix2 k h)) (fun h => V c main_v42 (ix2 0 h))) := by
  show (cfg1.win 5).cut (grid1.coords t) ((dat1 V c).after 5 t) = _
  rw [after1_5]
  unfold out1_5
  rw [View.canon_unit_zero hz]
  simp only [View.ld_unit_zero (S := S2000x128) hz, View.ld_unit_zero (S := S128x128) hz, View.ld_unit_zero (S := S1x128) hz]
  funext j
  obtain ⟨p, q, rfl⟩ : ∃ (p : Fin 2000) (q : Fin 128), j = ix2 p q := ⟨j 0, j 1, eq_ix2 j⟩
  show k1_pay1 (iblk1 V c 0 t) (iblk1 V c 1 t) (iblk1 V c 2 t) (iblk1 V c 3 t) (iblk1 V c 4 t) (ix2 p q)
      = Cert.GraphConv.conv (V c main_v33) (V c main_v23) (fun h k => V c main_v36 (ix2 k h))
          (fun h k => V c main_v39 (ix2 k h)) (fun h => V c main_v42 (ix2 0 h)) (((cfg1.win 5).blk t).view.emb (ix2 p q))
  rw [emb5_apply, Cert.GraphConv.conv_ix2]
  refine (pay_apply (iblk1 V c 0 t) (iblk1 V c 1 t) (iblk1 V c 2 t) (iblk1 V c 3 t) (iblk1 V c 4 t) p q).trans ?_
  unfold Cert.GraphConv.convAt
  refine (congrArg (fun z => max z 0) (add_right_comm _ _ _)).trans ?_
  refine congrArg (fun z => max z 0) ?_
  refine congrArg₂ (· + ·) (congrArg₂ (· + ·) (Finset.sum_congr rfl fun k _ => ?_) ?_) (Finset.sum_congr rfl fun k _ => ?_)
  · exact congrArg₂ (· * ·) (blk0_apply V c t p k) (blk2_apply V c t k q)
  · exact blk4_apply V c t 0 q
  · exact congrArg₂ (· * ·) (blk1_apply V c t p k) (blk3_apply V c t k q)

/-- An index of the array is in point `t`'s block iff each coordinate is in the block's range on its axis. -/
theorem mem_blk (t : Fin cfg1.N) (i : S100000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v43).slice (win1_5.rect t)).set ↔ _
  rw [View.set_slice_whole, Rect.mem_set_unit]
  exact Iff.rfl

/-- Every index of the output array is in some point's block: row `r` is in row block `r / 2000`, and every block
    has all 128 columns. -/
theorem cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : grid1.N = 50 := N_1
  let t : Fin cfg1.N := ⟨(i 0).val / 2000, by show (i 0).val / 2000 < grid1.N; omega⟩
  obtain ⟨e00, e01, e10, e11, e20, e21, e30, e31, e40, e41, e50, e51⟩ := idx_facts t
  have ht : t.val = (i 0).val / 2000 := rfl
  refine ⟨t, flush1_5 t, ?_⟩
  rw [mem_blk]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 128 ≤ (i 1).val ∧ (i 1).val < win1_5.index t (1 : Fin 2) * 128 + 128; omega

/-- After region 1 its output array is one layer of the specification applied to the arrays the region found:
    the aggregated features (window 0), the node features (window 1), the two transposed weight matrices
    (windows 2 and 3, read as `w[k, h]`) and the bias row (window 4). -/
theorem final1 (c : Dev nD) :
    (dat1 (F := Ideal) V c).arrAt 5 cfg1.N
      = Cert.GraphConv.conv (V c main_v33) (V c main_v23)
          (fun h k => V c main_v36 (ix2 k h)) (fun h k => V c main_v39 (ix2 k h)) (fun h => V c main_v42 (ix2 0 h)) :=
  (dat1 (F := Ideal) V c).arrAt_eq_of_cover 5
    (Cert.GraphConv.conv (V c main_v33) (V c main_v23)
      (fun h k => V c main_v36 (ix2 k h)) (fun h k => V c main_v39 (ix2 k h)) (fun h => V c main_v42 (ix2 0 h)))
    (fun t _ => flushed_eq V c t) cover

end Cert.KernelIdeal.KConv1

end
-- ==== Proof.KConv2.lean ====
/-
  Region 2 of the kernel's program (the third graph-convolution layer's dense part), as a whole array.
-/
import proofs.«121978_j60224031425326_1_alg».proof.Proof.Gen.KernelIdeal.Frame
import proofs.«121978_j60224031425326_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KConv2

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-! ## The block product at an index -/

/-- The left operand of the block product is read in the output's row … -/
theorem lhs_mm_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- … at the contraction position; -/
theorem lhs_mm_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- the right operand in the row the contraction position names … -/
theorem rhs_mm_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- … and the output's column. -/
theorem rhs_mm_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A 2000 x 128 block times a 128 x 128 matrix into the zero accumulator, at row `p` and column `q`: the sum over
    `k` of the block's `(p, k)` entry times the matrix's `(k, q)` entry. -/
theorem mm_apply {φ₁ φ₂ : FTy} (A : FVec Ideal S2000x128 φ₁) (W : FVec Ideal S128x128 φ₂) (p : Fin 2000) (q : Fin 128) :
    FloatOps.matmul dot_S2000x128_S128x128_S2000x128_1_0_0_1_n_n none A W (constant S2000x128 .f32 0x00000000#32) (ix2 p q)
      = ∑ k : Fin 128, A (ix2 p k) * W (ix2 k q) := by
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs_mm_0 _ _
    | ⟨1, _⟩ => exact (lhs_mm_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs_mm_0 _ _).trans hk
    | ⟨1, _⟩ => exact rhs_mm_1 _ _)
  rw [el, er]

/-! ## The body's arithmetic at an index -/

/-- What the body stores at row `p`, column `q` of its output block, from its five loaded blocks: the two block
    products, the bias row under every row, and the maximum with zero. -/
theorem pay_apply (x0 x1 : Vec Ideal S2000x128 .f32) (x2 x3 : Vec Ideal S128x128 .f32) (x4 : Vec Ideal S1x128 .f32)
    (p : Fin 2000) (q : Fin 128) :
    k2_pay1 x0 x1 x2 x3 x4 (ix2 p q)
      = max ((∑ k : Fin 128, x0 (ix2 p k) * x2 (ix2 k q)) + (∑ k : Fin 128, x1 (ix2 p k) * x3 (ix2 k q)) + x4 (ix2 0 q)) 0 := by
  unfold k2_pay1
  simp only [shapeCast_self, matmul]
  rw [maximumf_apply, addf_apply, addf_apply, mm_apply, mm_apply, broadcastTo_1b_ab_apply, broadcast_apply]
  simp only [truncf_apply]
  show max _ (Ideal.ofBits .f32 0x00000000#32) = _
  rw [Ideal.ofBits_zero_f32]

/-! ## From the blocks to the arrays -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: at point `t` the two feature windows and the output window are on row
    block `t`, and the weights' and the bias's windows stay on their one block. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row `p` of row block `t` is row `2000 t + p` of the array. -/
def rowOf (t : Fin cfg2.N) (p : Fin 2000) : Fin 100000 :=
  ⟨t.val * 2000 + p.val, by have h : t.val < 50 := lt_of_lt_of_eq t.isLt N_2; have := p.isLt; omega⟩

/-- The aggregated features' block at point `t` is rows `2000 t …` of their array. -/
theorem blk0_apply (c : Dev nD) (t : Fin cfg2.N) (p : Fin 2000) (k : Fin 128) :
    iblk2 V c 0 t (ix2 p k) = V c main_v53 (ix2 (rowOf t p) k) := by
  obtain ⟨e00, e01, e10, e11, e20, e21, e30, e31, e40, e41, e50, e51⟩ := idx_facts t
  show V c main_v53 (((cfg2.win 0).blk t).view.emb (ix2 p k)) = V c main_v53 (ix2 (rowOf t p) k)
  refine congrArg (V c main_v53) (funext fun a => Fin.ext ?_)
  match a with
  | ⟨0, _⟩ => show win2_0.index t (0 : Fin 2) * 2000 + 1 * p.val = t.val * 2000 + p.val; omega
  | ⟨1, _⟩ => show win2_0.index t (1 : Fin 2) * 128 + 1 * k.val = k.val; omega

/-- The node features' block at point `t` is the same rows of their array. -/
theorem blk1_apply (c : Dev nD) (t : Fin cfg2.N) (p : Fin 2000) (k : Fin 128) :
    iblk2 V c 1 t (ix2 p k) = V c main_v43 (ix2 (rowOf t p) k) := by
  obtain ⟨e00, e01, e10, e11, e20, e21, e30, e31, e40, e41, e50, e51⟩ := idx_facts t
  show V c main_v43 (((cfg2.win 1).blk t).view.emb (ix2 p k)) = V c main_v43 (ix2 (rowOf t p) k)
  refine congrArg (V c main_v43) (funext fun a => Fin.ext ?_)
  match a with
  | ⟨0, _⟩ => show win2_1.index t (0 : Fin 2) * 2000 + 1 * p.val = t.val * 2000 + p.val; omega
  | ⟨1, _⟩ => show win2_1.index t (1 : Fin 2) * 128 + 1 * k.val = k.val; omega

/-- The first weight matrix's block is the whole matrix at every point. -/
theorem blk2_apply (c : Dev nD) (t : Fin cfg2.N) (k : Fin 128) (q : Fin 128) :
    iblk2 V c 2 t (ix2 k q) = V c main_v56 (ix2 k q) := by
  obtain ⟨e00, e01, e10, e11, e20, e21, e30, e31, e40, e41, e50, e51⟩ := idx_facts t
  show V c main_v56 (((cfg2.win 2).blk t).view.emb (ix2 k q)) = V c main_v56 (ix2 k q)
  refine congrArg (V c main_v56) (funext fun a => Fin.ext ?_)
  match a with
  | ⟨0, _⟩ => show win2_2.index t (0 : Fin 2) * 128 + 1 * k.val = k.val; omega
  | ⟨1, _⟩ => show win2_2.index t (1 : Fin 2) * 128 + 1 * q.val = q.val; omega

/-- So is the second weight matrix's. -/
theorem blk3_apply (c : Dev nD) (t : Fin cfg2.N) (k : Fin 128) (q : Fin 128) :
    iblk2 V c 3 t (ix2 k q) = V c main_v59 (ix2 k q) := by
  obtain ⟨e00, e01, e10, e11, e20, e21, e30, e31, e40, e41, e50, e51⟩ := idx_facts t
  show V c main_v59 (((cfg2.win 3).blk t).view.emb (ix2 k q)) = V c main_v59 (ix2 k q)
  refine congrArg (V c main_v59) (funext fun a => Fin.ext ?_)
  match a with
  | ⟨0, _⟩ => show win2_3.index t (0 : Fin 2) * 128 + 1 * k.val = k.val; omega
  | ⟨1, _⟩ => show win2_3.index t (1 : Fin 2) * 128 + 1 * q.val = q.val; omega

/-- And the bias row's block is the whole row. -/
theorem blk4_apply (c : Dev nD) (t : Fin cfg2.N) (u : Fin 1) (q : Fin 128) :
    iblk2 V c 4 t (ix2 u q) = V c main_v62 (ix2 u q) := by
  obtain ⟨e00, e01, e10, e11, e20, e21, e30, e31, e40, e41, e50, e51⟩ := idx_facts t
  show V c main_v62 (((cfg2.win 4).blk t).view.emb (ix2 u q)) = V c main_v62 (ix2 u q)
  refine congrArg (V c main_v62) (funext fun a => Fin.ext ?_)
  match a with
  | ⟨0, _⟩ => show win2_4.index t (0 : Fin 2) * 1 + 1 * u.val = u.val; omega
  | ⟨1, _⟩ => show win2_4.index t (1 : Fin 2) * 128 + 1 * q.val = q.val; omega

/-- Where the output block's entry `(p, q)` sits in the output array at point `t`. -/
theorem emb5_apply (t : Fin cfg2.N) (p : Fin 2000) (q : Fin 128) :
    ((cfg2.win 5).blk t).view.emb (ix2 p q) = ix2 (rowOf t p) q := by
  obtain ⟨e00, e01, e10, e11, e20, e21, e30, e31, e40, e41, e50, e51⟩ := idx_facts t
  refine funext fun a => Fin.ext ?_
  match a with
  | ⟨0, _⟩ => show win2_5.index t (0 : Fin 2) * 2000 + 1 * p.val = t.val * 2000 + p.val; omega
  | ⟨1, _⟩ => show win2_5.index t (1 : Fin 2) * 128 + 1 * q.val = q.val; omega

/-- WHAT POINT `t` WRITES BACK is block `t` of one layer of the specification applied to the arrays the region found. -/
theorem flushed_eq (c : Dev nD) (t : Fin cfg2.N) :
    (dat2 (F := Ideal) V c).flushed 5 t = ((cfg2.win 5).blk t).view.read (Elt Ideal)
      (Cert.GraphConv.conv (V c main_v53) (V c main_v43)
        (fun h k => V c main_v56 (ix2 k h)) (fun h k => V c main_v59 (ix2 k h)) (fun h => V c main_v62 (ix2 0 h))) := by
  show (cfg2.win 5).cut (grid2.coords t) ((dat2 V c).after 5 t) = _
  rw [after2_5]
  unfold out2_5
  rw [View.canon_unit_zero hz]
  simp only [View.ld_unit_zero (S := S2000x128) hz, View.ld_unit_zero (S := S128x128) hz, View.ld_unit_zero (S := S1x128) hz]
  funext j
  obtain ⟨p, q, rfl⟩ : ∃ (p : Fin 2000) (q : Fin 128), j = ix2 p q := ⟨j 0, j 1, eq_ix2 j⟩
  show k2_pay1 (iblk2 V c 0 t) (iblk2 V c 1 t) (iblk2 V c 2 t) (iblk2 V c 3 t) (iblk2 V c 4 t) (ix2 p q)
      = Cert.GraphConv.conv (V c main_v53) (V c main_v43) (fun h k => V c main_v56 (ix2 k h))
          (fun h k => V c main_v59 (ix2 k h)) (fun h => V c main_v62 (ix2 0 h)) (((cfg2.win 5).blk t).view.emb (ix2 p q))
  rw [emb5_apply, Cert.GraphConv.conv_ix2]
  refine (pay_apply (iblk2 V c 0 t) (iblk2 V c 1 t) (iblk2 V c 2 t) (iblk2 V c 3 t) (iblk2 V c 4 t) p q).trans ?_
  unfold Cert.GraphConv.convAt
  refine (congrArg (fun z => max z 0) (add_right_comm _ _ _)).trans ?_
  refine congrArg (fun z => max z 0) ?_
  refine congrArg₂ (· + ·) (congrArg₂ (· + ·) (Finset.sum_congr rfl fun k _ => ?_) ?_) (Finset.sum_congr rfl fun k _ => ?_)
  · exact congrArg₂ (· * ·) (blk0_apply V c t p k) (blk2_apply V c t k q)
  · exact blk4_apply V c t 0 q
  · exact congrArg₂ (· * ·) (blk1_apply V c t p k) (blk3_apply V c t k q)

/-- An index of the array is in point `t`'s block iff each coordinate is in the block's range on its axis. -/
theorem mem_blk (t : Fin cfg2.N) (i : S100000x128.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole main_v63).slice (win2_5.rect t)).set ↔ _
  rw [View.set_slice_whole, Rect.mem_set_unit]
  exact Iff.rfl

/-- Every index of the output array is in some point's block: row `r` is in row block `r / 2000`, and every block
    has all 128 columns. -/
theorem cover (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  have hN : grid2.N = 50 := N_2
  let t : Fin cfg2.N := ⟨(i 0).val / 2000, by show (i 0).val / 2000 < grid2.N; omega⟩
  obtain ⟨e00, e01, e10, e11, e20, e21, e30, e31, e40, e41, e50, e51⟩ := idx_facts t
  have ht : t.val = (i 0).val / 2000 := rfl
  refine ⟨t, flush2_5 t, ?_⟩
  rw [mem_blk]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 128 ≤ (i 1).val ∧ (i 1).val < win2_5.index t (1 : Fin 2) * 128 + 128; omega

/-- After region 2 its output array is one layer of the specification applied to the arrays the region found:
    the aggregated features (window 0), the node features (window 1), the two transposed weight matrices
    (windows 2 and 3, read as `w[k, h]`) and the bias row (window 4). -/
theorem final2 (c : Dev nD) :
    (dat2 (F := Ideal) V c).arrAt 5 cfg2.N
      = Cert.GraphConv.conv (V c main_v53) (V c main_v43)
          (fun h k => V c main_v56 (ix2 k h)) (fun h k => V c main_v59 (ix2 k h)) (fun h => V c main_v62 (ix2 0 h)) :=
  (dat2 (F := Ideal) V c).arrAt_eq_of_cover 5
    (Cert.GraphConv.conv (V c main_v53) (V c main_v43)
      (fun h k => V c main_v56 (ix2 k h)) (fun h k => V c main_v59 (ix2 k h)) (fun h => V c main_v62 (ix2 0 h)))
    (fun t _ => flushed_eq V c t) cover

end Cert.KernelIdeal.KConv2

end
-- ==== Proof.KFinal.lean ====
/-
  Region 3 of the kernel's program (the read-out over adjacent pairs of nodes), each of its four output arrays as a
  whole array.
-/
import proofs.«121978_j60224031425326_1_alg».proof.Proof.Gen.KernelIdeal.Frame
import proofs.«121978_j60224031425326_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KFinal

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-! ## The body's values at one element of a block -/

/-- The whole-block rectangle starts at zero on both axes. -/
theorem zero_offsets : (![0, 0] : Fin 2 → Nat) = fun _ => 0 := funext fun a => by fin_cases a <;> rfl

/-- Column `q` of the first node of a pair row. -/
abbrev leftCol (q : Fin 128) : Fin 256 := ⟨q.val, by have := q.isLt; omega⟩
/-- Column `q` of the second node of a pair row. -/
abbrev rightCol (q : Fin 128) : Fin 256 := ⟨128 + q.val, by have := q.isLt; omega⟩

/-- The loaded block passes through a cast to its own shape unchanged. -/
theorem pay1_eq (x0 : Vec Ideal S2000x256 .f32) : k3_pay1 (F := Ideal) x0 = x0 := by
  unfold k3_pay1
  exact shapeCast_self x0 _

/-- The left half of a pair row: columns 0..127. -/
theorem pay2_at (x0 : Vec Ideal S2000x256 .f32) (p : Fin 2000) (q : Fin 128) :
    k3_pay2 (F := Ideal) x0 (ix2 p q) = x0 (ix2 p (leftCol q)) := by
  unfold k3_pay2
  refine (extractStridedSlice_apply ![0, 0] (k3_pay1 (F := Ideal) x0) _ (ix2 p q) (ix2 p (leftCol q)) (fun a => match a with
    | ⟨0, _⟩ => by show p.val = 0 + p.val; omega
    | ⟨1, _⟩ => by show q.val = 0 + q.val; omega)).trans ?_
  rw [pay1_eq]

/-- The right half of a pair row: columns 128..255. -/
theorem pay3_at (x0 : Vec Ideal S2000x256 .f32) (p : Fin 2000) (q : Fin 128) :
    k3_pay3 (F := Ideal) x0 (ix2 p q) = x0 (ix2 p (rightCol q)) := by
  unfold k3_pay3
  refine (extractStridedSlice_apply ![0, 128] (k3_pay1 (F := Ideal) x0) _ (ix2 p q) (ix2 p (rightCol q)) (fun a => match a with
    | ⟨0, _⟩ => by show p.val = 0 + p.val; omega
    | ⟨1, _⟩ => by show 128 + q.val = 128 + q.val; rfl)).trans ?_
  rw [pay1_eq]

/-- The distance: sqrt ((left - right)^2 + eps), element by element. -/
theorem pay4_at (x0 : Vec Ideal S2000x256 .f32) (p : Fin 2000) (q : Fin 128) :
    k3_pay4 (F := Ideal) x0 (ix2 p q)
      = Ideal.sqrt ((x0 (ix2 p (leftCol q)) - x0 (ix2 p (rightCol q))) * (x0 (ix2 p (leftCol q)) - x0 (ix2 p (rightCol q))) + Cert.GraphConv.eps) := by
  unfold k3_pay4 Cert.GraphConv.eps
  show Ideal.sqrt ((k3_pay2 (F := Ideal) x0 (ix2 p q) - k3_pay3 (F := Ideal) x0 (ix2 p q))
      * (k3_pay2 (F := Ideal) x0 (ix2 p q) - k3_pay3 (F := Ideal) x0 (ix2 p q)) + Ideal.ofBits .f32 0x3A83126F#32) = _
  rw [pay2_at, pay3_at]

/-! ## The read-out product: a 2000 x 128 block against the 128 x 1 weights -/

/-- The left operand's row is the output's row. -/
theorem lhs_mm_0 (i : S2000x1.Idx) (q : dot_S2000x128_S128x1_S2000x1_1_0_0_1_n_n.contr.Idx) :
    (dot_S2000x128_S128x1_S2000x1_1_0_0_1_n_n.lhsIdx i q 0).val = (i 0).val := by
  unfold DotDims.lhsIdx
  rw [dif_neg (show ¬(0 : Fin S2000x128.rank) ∈ dot_S2000x128_S128x1_S2000x1_1_0_0_1_n_n.lhsBatch by decide), dif_pos (show (0 : Fin S2000x128.rank) ∈ dot_S2000x128_S128x1_S2000x1_1_0_0_1_n_n.lhsNonContracting by decide)]
  rfl
/-- The left operand's column is the summation index. -/
theorem lhs_mm_1 (i : S2000x1.Idx) (q : dot_S2000x128_S128x1_S2000x1_1_0_0_1_n_n.contr.Idx) :
    (dot_S2000x128_S128x1_S2000x1_1_0_0_1_n_n.lhsIdx i q 1).val = (q ⟨0, by decide⟩).val :=
  dot_S2000x128_S128x1_S2000x1_1_0_0_1_n_n.lhsIdx_val_of_single rfl i q
/-- The right operand's row is the summation index. -/
theorem rhs_mm_0 (i : S2000x1.Idx) (q : dot_S2000x128_S128x1_S2000x1_1_0_0_1_n_n.contr.Idx) :
    (dot_S2000x128_S128x1_S2000x1_1_0_0_1_n_n.rhsIdx i q 0).val = (q ⟨0, by decide⟩).val :=
  dot_S2000x128_S128x1_S2000x1_1_0_0_1_n_n.rhsIdx_val_of_single rfl i q
/-- The right operand's column is the output's column. -/
theorem rhs_mm_1 (i : S2000x1.Idx) (q : dot_S2000x128_S128x1_S2000x1_1_0_0_1_n_n.contr.Idx) :
    (dot_S2000x128_S128x1_S2000x1_1_0_0_1_n_n.rhsIdx i q 1).val = (i 1).val := by
  unfold DotDims.rhsIdx
  rw [dif_neg (show ¬(1 : Fin S128x1.rank) ∈ dot_S2000x128_S128x1_S2000x1_1_0_0_1_n_n.rhsBatch by decide), dif_pos (show (1 : Fin S128x1.rank) ∈ dot_S2000x128_S128x1_S2000x1_1_0_0_1_n_n.rhsNonContracting by decide)]
  rfl

/-- Into a zero accumulator the product at row `p` is the plain sum over the 128 shared columns. -/
theorem mm_at (a : FVec Ideal S2000x128 .bf16) (b : FVec Ideal S128x1 .bf16) (p : Fin 2000) (u : Fin 1) :
    matmul dot_S2000x128_S128x1_S2000x1_1_0_0_1_n_n none a b (constant (F := Ideal) S2000x1 .f32 0x00000000#32) (ix2 p u)
      = ∑ k : Fin 128, a (ix2 p k) * b (ix2 k u) := by
  simp only [matmul]
  rw [Ideal.matmul_constant_zero_apply, ← Equiv.sum_comp (contrEquiv1 dot_S2000x128_S128x1_S2000x1_1_0_0_1_n_n 128 rfl rfl).symm]
  refine Finset.sum_congr rfl fun k _ => ?_
  have hk := contrEquiv1_symm_val dot_S2000x128_S128x1_S2000x1_1_0_0_1_n_n 128 rfl rfl k
  have el : dot_S2000x128_S128x1_S2000x1_1_0_0_1_n_n.lhsIdx (ix2 p u) ((contrEquiv1 dot_S2000x128_S128x1_S2000x1_1_0_0_1_n_n 128 rfl rfl).symm k) = ix2 p k := funext fun a => Fin.ext (by
    match a with
    | ⟨0, _⟩ => exact lhs_mm_0 _ _
    | ⟨1, _⟩ => exact (lhs_mm_1 _ _).trans hk)
  have er : dot_S2000x128_S128x1_S2000x1_1_0_0_1_n_n.rhsIdx (ix2 p u) ((contrEquiv1 dot_S2000x128_S128x1_S2000x1_1_0_0_1_n_n 128 rfl rfl).symm k) = ix2 k u := funext fun a => Fin.ext (by
    match a with
    | ⟨0, _⟩ => exact (rhs_mm_0 _ _).trans hk
    | ⟨1, _⟩ => exact rhs_mm_1 _ _)
  rw [el, er]

/-- The one bias number, spread down the 2000 rows. -/
theorem bias_at (x2 : Vec Ideal S1x1 .f32) (p : Fin 2000) (u : Fin 1) :
    broadcastTo S2000x1 (shapeCast S1x1 x2 shapeCasts_S1x1_S1x1) broadcasts_S1x1_S2000x1 (ix2 p u) = x2 (ix2 0 0) := by
  rw [shapeCast_self]
  exact broadcastTo_apply x2 _ (ix2 p u) (ix2 0 0) (fun a => match a with
    | ⟨0, _⟩ => rfl
    | ⟨1, _⟩ => rfl)

/-- The read-out at row `p`: the logistic function of the row's distances against the weights, plus the bias. -/
theorem pay5_at (x0 : Vec Ideal S2000x256 .f32) (x1 : Vec Ideal S128x1 .f32) (x2 : Vec Ideal S1x1 .f32) (p : Fin 2000) (u : Fin 1) :
    k3_pay5 (F := Ideal) x0 x1 x2 (ix2 p u)
      = Ideal.logistic ((∑ k : Fin 128, k3_pay4 (F := Ideal) x0 (ix2 p k) * x1 (ix2 k 0)) + x2 (ix2 0 0)) := by
  unfold k3_pay5
  show Ideal.logistic (matmul dot_S2000x128_S128x1_S2000x1_1_0_0_1_n_n none
        (truncf .bf16 (k3_pay4 (F := Ideal) x0) bitsLt_bf16_f32)
        (truncf .bf16 (shapeCast S128x1 x1 shapeCasts_S128x1_S128x1) bitsLt_bf16_f32)
        (constant (F := Ideal) S2000x1 .f32 0x00000000#32) (ix2 p u)
      + broadcastTo S2000x1 (shapeCast S1x1 x2 shapeCasts_S1x1_S1x1) broadcasts_S1x1_S2000x1 (ix2 p u)) = _
  rw [mm_at, bias_at, shapeCast_self]
  obtain rfl : u = 0 := Subsingleton.elim _ _
  rfl

/-! ## Where the blocks sit in their arrays -/

variable (V : (c : Dev nD) → (b : Ref sig .tc) → Buf (Elt Ideal) ((c : Thread nD τ).loc b))

/-- The index maps over the grid: point `t` reads pair rows block `t` and writes block `t` of each output, always in
    column block 0; the weights and the bias are one block each. -/
theorem index_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0
    ∧ win3_5.index t (0 : Fin 2) = t.val ∧ win3_5.index t (1 : Fin 2) = 0
    ∧ win3_6.index t (0 : Fin 2) = t.val ∧ win3_6.index t (1 : Fin 2) = 0 :=
  (by decide +kernel : ∀ t : Fin grid3.N, _)

/-- Row `p` of block `t` is row `2000 t + p` of the array. -/
abbrev rowAt (t : Fin cfg3.N) (p : Fin 2000) : Fin 50000 :=
  ⟨t.val * 2000 + p.val, by have ht : t.val < 25 := t.isLt; have hp := p.isLt; omega⟩

/-- The block row that holds row `r`. -/
abbrev blockOfRow (r : Fin 50000) : Fin cfg3.N := ⟨r.val / 2000, by have hr := r.isLt; show r.val / 2000 < 25; omega⟩

/-- The pair rows' block at point `t`, element by element. -/
theorem blk0_at (c : Dev nD) (t : Fin cfg3.N) (p : Fin 2000) (q : Fin 256) :
    (iblk3 V c 0 t : Vec Ideal S2000x256 .f32) (ix2 p q) = V c main_v64 (ix2 (rowAt t p) q) := by
  unfold iblk3
  show V c main_v64 (((cfg3.win 0).blk t).view.emb (ix2 p q)) = V c main_v64 (ix2 (rowAt t p) q)
  obtain ⟨e0, e1, -⟩ := index_facts t
  refine congrArg (V c main_v64) (funext fun a => Fin.ext ?_)
  match a with
  | ⟨0, _⟩ => show win3_0.index t (0 : Fin 2) * 2000 + 1 * p.val = t.val * 2000 + p.val; rw [e0]; omega
  | ⟨1, _⟩ => show win3_0.index t (1 : Fin 2) * 256 + 1 * q.val = q.val; rw [e1]; omega

/-- The read-out weights' one block is the whole 128 x 1 array. -/
theorem blk1_at (c : Dev nD) (t : Fin cfg3.N) (k : Fin 128) (u : Fin 1) :
    (iblk3 V c 1 t : Vec Ideal S128x1 .f32) (ix2 k u) = V c main_v65 (ix2 k u) := by
  unfold iblk3
  show V c main_v65 (((cfg3.win 1).blk t).view.emb (ix2 k u)) = V c main_v65 (ix2 k u)
  obtain ⟨-, -, e0, e1, -⟩ := index_facts t
  refine congrArg (V c main_v65) (funext fun a => Fin.ext ?_)
  match a with
  | ⟨0, _⟩ => show win3_1.index t (0 : Fin 2) * 128 + 1 * k.val = k.val; rw [e0]; omega
  | ⟨1, _⟩ => show win3_1.index t (1 : Fin 2) * 1 + 1 * u.val = u.val; rw [e1]; omega

/-- The bias' one block is the whole 1 x 1 array. -/
theorem blk2_at (c : Dev nD) (t : Fin cfg3.N) (u v : Fin 1) :
    (iblk3 V c 2 t : Vec Ideal S1x1 .f32) (ix2 u v) = V c main_v66 (ix2 u v) := by
  unfold iblk3
  show V c main_v66 (((cfg3.win 2).blk t).view.emb (ix2 u v)) = V c main_v66 (ix2 u v)
  obtain ⟨-, -, -, -, e0, e1, -⟩ := index_facts t
  refine congrArg (V c main_v66) (funext fun a => Fin.ext ?_)
  match a with
  | ⟨0, _⟩ => show win3_2.index t (0 : Fin 2) * 1 + 1 * u.val = u.val; rw [e0]; omega
  | ⟨1, _⟩ => show win3_2.index t (1 : Fin 2) * 1 + 1 * v.val = v.val; rw [e1]; omega

/-! ## Output window 3: the logistic read-out -/

/-- An element of output block `t` sits at row `2000 t + p` of the one column. -/
theorem emb3 (t : Fin cfg3.N) (p : Fin 2000) (u : Fin 1) :
    ((cfg3.win 3).blk t).view.emb (ix2 p u) = (ix2 (rowAt t p) u : S50000x1.Idx) := by
  obtain ⟨-, -, -, -, -, -, e0, e1, -⟩ := index_facts t
  refine funext fun a => Fin.ext ?_
  match a with
  | ⟨0, _⟩ => show win3_3.index t (0 : Fin 2) * 2000 + 1 * p.val = t.val * 2000 + p.val; rw [e0]; omega
  | ⟨1, _⟩ => show win3_3.index t (1 : Fin 2) * 1 + 1 * u.val = u.val; rw [e1]; omega

/-- What point `t` writes back is block `t` of the read-out of the pair rows, weights and bias the region found. -/
theorem flushed3 (c : Dev nD) (t : Fin cfg3.N) :
    (dat3 (F := Ideal) V c).flushed 3 t = ((cfg3.win 3).blk t).view.read (Elt Ideal)
      (Cert.GraphConv.sig (V c main_v64) (fun k => V c main_v65 (ix2 k 0)) (V c main_v66 (ix2 0 0))) := by
  show (cfg3.win 3).cut (grid3.coords t) ((dat3 (F := Ideal) V c).after 3 t) = _
  rw [after3_3]
  unfold out3_3
  rw [View.canon_unit_zero zero_offsets]
  simp only [View.ld_unit_zero (S := S2000x256) zero_offsets, View.ld_unit_zero (S := S128x1) zero_offsets, View.ld_unit_zero (S := S1x1) zero_offsets]
  funext j
  obtain ⟨p, u, rfl⟩ : ∃ (p : Fin 2000) (u : Fin 1), j = ix2 p u := ⟨j 0, j 1, eq_ix2 j⟩
  show k3_pay5 (F := Ideal) (iblk3 V c 0 t) (iblk3 V c 1 t) (iblk3 V c 2 t) (ix2 p u)
    = Cert.GraphConv.sig (V c main_v64) (fun k => V c main_v65 (ix2 k 0)) (V c main_v66 (ix2 0 0)) (((cfg3.win 3).blk t).view.emb (ix2 p u))
  rw [emb3, Cert.GraphConv.sig_ix2]
  refine (pay5_at (iblk3 V c 0 t) (iblk3 V c 1 t) (iblk3 V c 2 t) p u).trans ?_
  unfold Cert.GraphConv.sigAt
  rw [blk2_at]
  refine congrArg (fun s => Ideal.logistic (s + V c main_v66 (ix2 0 0))) (Finset.sum_congr rfl fun k _ => ?_)
  rw [blk1_at]
  refine congrArg (· * V c main_v65 (ix2 k 0)) ((pay4_at (iblk3 V c 0 t) p k).trans ?_)
  rw [blk0_at, blk0_at]
  rfl

/-- An index of the array is in block `t` iff each coordinate is in the block's range on its axis. -/
theorem mem_blk3 (t : Fin cfg3.N) (i : S50000x1.Idx) :
    i ∈ ((cfg3.win 3).blk t).view.set ↔ ∀ a : Fin 2, win3_3.index t a * S2000x1.size a ≤ (i a).val ∧ (i a).val < win3_3.index t a * S2000x1.size a + S2000x1.size a := by
  show i ∈ ((View.whole main_v67_0).slice (win3_3.rect t)).set ↔ _
  rw [View.set_slice_whole, Rect.mem_set_unit]
  exact Iff.rfl

/-- Row `r` lies in block `r / 2000`. -/
theorem cover3 (i : S50000x1.Idx) :
    ∃ t : Fin cfg3.N, (cfg3.win 3).flush t = true ∧ i ∈ ((cfg3.win 3).blk t).view.set := by
  have h0 : (i 0).val < 50000 := (i 0).isLt
  have h1 : (i 1).val < 1 := (i 1).isLt
  obtain ⟨-, -, -, -, -, -, e0, e1, -⟩ := index_facts (blockOfRow (i 0))
  refine ⟨blockOfRow (i 0), flush3_3 _, ?_⟩
  rw [mem_blk3]
  intro a
  match a with
  | ⟨0, _⟩ =>
    show win3_3.index (blockOfRow (i 0)) (0 : Fin 2) * 2000 ≤ (i 0).val ∧ (i 0).val < win3_3.index (blockOfRow (i 0)) (0 : Fin 2) * 2000 + 2000
    rw [e0]; show (i 0).val / 2000 * 2000 ≤ (i 0).val ∧ (i 0).val < (i 0).val / 2000 * 2000 + 2000; omega
  | ⟨1, _⟩ =>
    show win3_3.index (blockOfRow (i 0)) (1 : Fin 2) * 1 ≤ (i 1).val ∧ (i 1).val < win3_3.index (blockOfRow (i 0)) (1 : Fin 2) * 1 + 1
    rw [e1]; omega

/-- Output window 3: the logistic read-out, one number per pair of nodes. -/
theorem final3_sig (c : Dev nD) :
    (dat3 (F := Ideal) V c).arrAt 3 cfg3.N
      = Cert.GraphConv.sig (V c main_v64) (fun k => V c main_v65 (ix2 k 0)) (V c main_v66 (ix2 0 0)) :=
  (dat3 (F := Ideal) V c).arrAt_eq_of_cover 3 _ (fun t _ => flushed3 V c t) cover3

/-! ## Output window 4: the distances -/

/-- An element of output block `t` sits at row `2000 t + p`, same column. -/
theorem emb4 (t : Fin cfg3.N) (p : Fin 2000) (q : Fin 128) :
    ((cfg3.win 4).blk t).view.emb (ix2 p q) = (ix2 (rowAt t p) q : S50000x128.Idx) := by
  obtain ⟨-, -, -, -, -, -, -, -, e0, e1, -⟩ := index_facts t
  refine funext fun a => Fin.ext ?_
  match a with
  | ⟨0, _⟩ => show win3_4.index t (0 : Fin 2) * 2000 + 1 * p.val = t.val * 2000 + p.val; rw [e0]; omega
  | ⟨1, _⟩ => show win3_4.index t (1 : Fin 2) * 128 + 1 * q.val = q.val; rw [e1]; omega

/-- What point `t` writes back is block `t` of the distances of the pair rows the region found. -/
theorem flushed4 (c : Dev nD) (t : Fin cfg3.N) :
    (dat3 (F := Ideal) V c).flushed 4 t = ((cfg3.win 4).blk t).view.read (Elt Ideal) (Cert.GraphConv.dist (V c main_v64)) := by
  show (cfg3.win 4).cut (grid3.coords t) ((dat3 (F := Ideal) V c).after 4 t) = _
  rw [after3_4]
  unfold out3_4
  rw [View.canon_unit_zero zero_offsets]
  simp only [View.ld_unit_zero (S := S2000x256) zero_offsets]
  funext j
  obtain ⟨p, q, rfl⟩ : ∃ (p : Fin 2000) (q : Fin 128), j = ix2 p q := ⟨j 0, j 1, eq_ix2 j⟩
  show k3_pay4 (F := Ideal) (iblk3 V c 0 t) (ix2 p q) = Cert.GraphConv.dist (V c main_v64) (((cfg3.win 4).blk t).view.emb (ix2 p q))
  rw [emb4, Cert.GraphConv.dist_ix2]
  refine (pay4_at (iblk3 V c 0 t) p q).trans ?_
  rw [blk0_at, blk0_at]
  rfl

/-- An index of the array is in block `t` iff each coordinate is in the block's range on its axis. -/
theorem mem_blk4 (t : Fin cfg3.N) (i : S50000x128.Idx) :
    i ∈ ((cfg3.win 4).blk t).view.set ↔ ∀ a : Fin 2, win3_4.index t a * S2000x128.size a ≤ (i a).val ∧ (i a).val < win3_4.index t a * S2000x128.size a + S2000x128.size a := by
  show i ∈ ((View.whole main_v67_1).slice (win3_4.rect t)).set ↔ _
  rw [View.set_slice_whole, Rect.mem_set_unit]
  exact Iff.rfl

/-- Row `r` lies in block `r / 2000`. -/
theorem cover4 (i : S50000x128.Idx) :
    ∃ t : Fin cfg3.N, (cfg3.win 4).flush t = true ∧ i ∈ ((cfg3.win 4).blk t).view.set := by
  have h0 : (i 0).val < 50000 := (i 0).isLt
  have h1 : (i 1).val < 128 := (i 1).isLt
  obtain ⟨-, -, -, -, -, -, -, -, e0, e1, -⟩ := index_facts (blockOfRow (i 0))
  refine ⟨blockOfRow (i 0), flush3_4 _, ?_⟩
  rw [mem_blk4]
  intro a
  match a with
  | ⟨0, _⟩ =>
    show win3_4.index (blockOfRow (i 0)) (0 : Fin 2) * 2000 ≤ (i 0).val ∧ (i 0).val < win3_4.index (blockOfRow (i 0)) (0 : Fin 2) * 2000 + 2000
    rw [e0]; show (i 0).val / 2000 * 2000 ≤ (i 0).val ∧ (i 0).val < (i 0).val / 2000 * 2000 + 2000; omega
  | ⟨1, _⟩ =>
    show win3_4.index (blockOfRow (i 0)) (1 : Fin 2) * 128 ≤ (i 1).val ∧ (i 1).val < win3_4.index (blockOfRow (i 0)) (1 : Fin 2) * 128 + 128
    rw [e1]; omega

/-- Output window 4: sqrt ((left - right)^2 + eps). -/
theorem final3_dist (c : Dev nD) :
    (dat3 (F := Ideal) V c).arrAt 4 cfg3.N = Cert.GraphConv.dist (V c main_v64) :=
  (dat3 (F := Ideal) V c).arrAt_eq_of_cover 4 (Cert.GraphConv.dist (V c main_v64)) (fun t _ => flushed4 V c t) cover4

/-! ## Output window 5: the first node of each pair -/

/-- An element of output block `t` sits at row `2000 t + p`, same column. -/
theorem emb5 (t : Fin cfg3.N) (p : Fin 2000) (q : Fin 128) :
    ((cfg3.win 5).blk t).view.emb (ix2 p q) = (ix2 (rowAt t p) q : S50000x128.Idx) := by
  obtain ⟨-, -, -, -, -, -, -, -, -, -, e0, e1, -⟩ := index_facts t
  refine funext fun a => Fin.ext ?_
  match a with
  | ⟨0, _⟩ => show win3_5.index t (0 : Fin 2) * 2000 + 1 * p.val = t.val * 2000 + p.val; rw [e0]; omega
  | ⟨1, _⟩ => show win3_5.index t (1 : Fin 2) * 128 + 1 * q.val = q.val; rw [e1]; omega

/-- What point `t` writes back is block `t` of the left halves of the pair rows the region found. -/
theorem flushed5 (c : Dev nD) (t : Fin cfg3.N) :
    (dat3 (F := Ideal) V c).flushed 5 t = ((cfg3.win 5).blk t).view.read (Elt Ideal) (Cert.GraphConv.left (V c main_v64)) := by
  show (cfg3.win 5).cut (grid3.coords t) ((dat3 (F := Ideal) V c).after 5 t) = _
  rw [after3_5]
  unfold out3_5
  rw [View.canon_unit_zero zero_offsets]
  simp only [View.ld_unit_zero (S := S2000x256) zero_offsets]
  funext j
  obtain ⟨p, q, rfl⟩ : ∃ (p : Fin 2000) (q : Fin 128), j = ix2 p q := ⟨j 0, j 1, eq_ix2 j⟩
  show k3_pay2 (F := Ideal) (iblk3 V c 0 t) (ix2 p q) = Cert.GraphConv.left (V c main_v64) (((cfg3.win 5).blk t).view.emb (ix2 p q))
  rw [emb5, Cert.GraphConv.left_ix2]
  refine (pay2_at (iblk3 V c 0 t) p q).trans ?_
  rw [blk0_at]
  rfl

/-- An index of the array is in block `t` iff each coordinate is in the block's range on its axis. -/
theorem mem_blk5 (t : Fin cfg3.N) (i : S50000x128.Idx) :
    i ∈ ((cfg3.win 5).blk t).view.set ↔ ∀ a : Fin 2, win3_5.index t a * S2000x128.size a ≤ (i a).val ∧ (i a).val < win3_5.index t a * S2000x128.size a + S2000x128.size a := by
  show i ∈ ((View.whole main_v67_2).slice (win3_5.rect t)).set ↔ _
  rw [View.set_slice_whole, Rect.mem_set_unit]
  exact Iff.rfl

/-- Row `r` lies in block `r / 2000`. -/
theorem cover5 (i : S50000x128.Idx) :
    ∃ t : Fin cfg3.N, (cfg3.win 5).flush t = true ∧ i ∈ ((cfg3.win 5).blk t).view.set := by
  have h0 : (i 0).val < 50000 := (i 0).isLt
  have h1 : (i 1).val < 128 := (i 1).isLt
  obtain ⟨-, -, -, -, -, -, -, -, -, -, e0, e1, -⟩ := index_facts (blockOfRow (i 0))
  refine ⟨blockOfRow (i 0), flush3_5 _, ?_⟩
  rw [mem_blk5]
  intro a
  match a with
  | ⟨0, _⟩ =>
    show win3_5.index (blockOfRow (i 0)) (0 : Fin 2) * 2000 ≤ (i 0).val ∧ (i 0).val < win3_5.index (blockOfRow (i 0)) (0 : Fin 2) * 2000 + 2000
    rw [e0]; show (i 0).val / 2000 * 2000 ≤ (i 0).val ∧ (i 0).val < (i 0).val / 2000 * 2000 + 2000; omega
  | ⟨1, _⟩ =>
    show win3_5.index (blockOfRow (i 0)) (1 : Fin 2) * 128 ≤ (i 1).val ∧ (i 1).val < win3_5.index (blockOfRow (i 0)) (1 : Fin 2) * 128 + 128
    rw [e1]; omega

/-- Output window 5: the first node of each pair. -/
theorem final3_left (c : Dev nD) :
    (dat3 (F := Ideal) V c).arrAt 5 cfg3.N = Cert.GraphConv.left (V c main_v64) :=
  (dat3 (F := Ideal) V c).arrAt_eq_of_cover 5 (Cert.GraphConv.left (V c main_v64)) (fun t _ => flushed5 V c t) cover5

/-! ## Output window 6: the second node of each pair -/

/-- An element of output block `t` sits at row `2000 t + p`, same column. -/
theorem emb6 (t : Fin cfg3.N) (p : Fin 2000) (q : Fin 128) :
    ((cfg3.win 6).blk t).view.emb (ix2 p q) = (ix2 (rowAt t p) q : S50000x128.Idx) := by
  obtain ⟨-, -, -, -, -, -, -, -, -, -, -, -, e0, e1⟩ := index_facts t
  refine funext fun a => Fin.ext ?_
  match a with
  | ⟨0, _⟩ => show win3_6.index t (0 : Fin 2) * 2000 + 1 * p.val = t.val * 2000 + p.val; rw [e0]; omega
  | ⟨1, _⟩ => show win3_6.index t (1 : Fin 2) * 128 + 1 * q.val = q.val; rw [e1]; omega

/-- What point `t` writes back is block `t` of the right halves of the pair rows the region found. -/
theorem flushed6 (c : Dev nD) (t : Fin cfg3.N) :
    (dat3 (F := Ideal) V c).flushed 6 t = ((cfg3.win 6).blk t).view.read (Elt Ideal) (Cert.GraphConv.right (V c main_v64)) := by
  show (cfg3.win 6).cut (grid3.coords t) ((dat3 (F := Ideal) V c).after 6 t) = _
  rw [after3_6]
  unfold out3_6
  rw [View.canon_unit_zero zero_offsets]
  simp only [View.ld_unit_zero (S := S2000x256) zero_offsets]
  funext j
  obtain ⟨p, q, rfl⟩ : ∃ (p : Fin 2000) (q : Fin 128), j = ix2 p q := ⟨j 0, j 1, eq_ix2 j⟩
  show k3_pay3 (F := Ideal) (iblk3 V c 0 t) (ix2 p q) = Cert.GraphConv.right (V c main_v64) (((cfg3.win 6).blk t).view.emb (ix2 p q))
  rw [emb6, Cert.GraphConv.right_ix2]
  refine (pay3_at (iblk3 V c 0 t) p q).trans ?_
  rw [blk0_at]
  rfl

/-- An index of the array is in block `t` iff each coordinate is in the block's range on its axis. -/
theorem mem_blk6 (t : Fin cfg3.N) (i : S50000x128.Idx) :
    i ∈ ((cfg3.win 6).blk t).view.set ↔ ∀ a : Fin 2, win3_6.index t a * S2000x128.size a ≤ (i a).val ∧ (i a).val < win3_6.index t a * S2000x128.size a + S2000x128.size a := by
  show i ∈ ((View.whole main_v67_3).slice (win3_6.rect t)).set ↔ _
  rw [View.set_slice_whole, Rect.mem_set_unit]
  exact Iff.rfl

/-- Row `r` lies in block `r / 2000`. -/
theorem cover6 (i : S50000x128.Idx) :
    ∃ t : Fin cfg3.N, (cfg3.win 6).flush t = true ∧ i ∈ ((cfg3.win 6).blk t).view.set := by
  have h0 : (i 0).val < 50000 := (i 0).isLt
  have h1 : (i 1).val < 128 := (i 1).isLt
  obtain ⟨-, -, -, -, -, -, -, -, -, -, -, -, e0, e1⟩ := index_facts (blockOfRow (i 0))
  refine ⟨blockOfRow (i 0), flush3_6 _, ?_⟩
  rw [mem_blk6]
  intro a
  match a with
  | ⟨0, _⟩ =>
    show win3_6.index (blockOfRow (i 0)) (0 : Fin 2) * 2000 ≤ (i 0).val ∧ (i 0).val < win3_6.index (blockOfRow (i 0)) (0 : Fin 2) * 2000 + 2000
    rw [e0]; show (i 0).val / 2000 * 2000 ≤ (i 0).val ∧ (i 0).val < (i 0).val / 2000 * 2000 + 2000; omega
  | ⟨1, _⟩ =>
    show win3_6.index (blockOfRow (i 0)) (1 : Fin 2) * 128 ≤ (i 1).val ∧ (i 1).val < win3_6.index (blockOfRow (i 0)) (1 : Fin 2) * 128 + 128
    rw [e1]; omega

/-- Output window 6: the second node of each pair. -/
theorem final3_right (c : Dev nD) :
    (dat3 (F := Ideal) V c).arrAt 6 cfg3.N = Cert.GraphConv.right (V c main_v64) :=
  (dat3 (F := Ideal) V c).arrAt_eq_of_cover 6 (Cert.GraphConv.right (V c main_v64)) (fun t _ => flushed6 V c t) cover6

end Cert.KernelIdeal.KFinal

end
-- ==== Proof.Layout.lean ====
/-
  Four small readings of layout operations at an index: a 128 x 128 transpose, the 1 x 128 to 128 x 1 transpose,
  a 1 x 128 row cast to a vector and back, and a one-element vector cast to a 1 x 1 matrix.
-/
import proofs.«121978_j60224031425326_1_alg».proof.Proof.Gen.KernelIdeal
import Idealize.ShloMosaic.Lib.Pipeline.Value
import Idealize.ShloMosaic.Lib.ValueIdx

noncomputable section

namespace Cert.KernelIdeal.Layout

open Cert.KernelIdeal Idealize.ShloMosaic Idealize.ShloMosaic.ValueIdx

variable {α : Type}

/-- A transposed square matrix read at (k, h) is the matrix at (h, k). -/
theorem transpose_sq (w : S128x128.Idx → α) (hT : S128x128.Transposes [1, 0] S128x128) (k h : Fin 128) :
    transpose S128x128 [1, 0] w hT (ix2 k h) = w (ix2 h k) :=
  transpose_apply [1, 0] w hT (ix2 k h) (ix2 h k) (fun b => match b with
    | ⟨0, _⟩ => rfl
    | ⟨1, _⟩ => rfl)

/-- A row transposed to a column, read at (k, 0), is the row at (0, k). -/
theorem transpose_row (w : S1x128.Idx → α) (hT : S1x128.Transposes [1, 0] S128x1) (k : Fin 128) :
    transpose S128x1 [1, 0] w hT (ix2 k 0) = w (ix2 0 k) :=
  transpose_apply [1, 0] w hT (ix2 k 0) (ix2 0 k) (fun b => match b with
    | ⟨0, _⟩ => rfl
    | ⟨1, _⟩ => rfl)

/-- A row cast to a vector and back is the row. -/
theorem row_there_and_back (b : S1x128.Idx → α) (h1 : S1x128.ShapeCasts S128) (h2 : S128.ShapeCasts S1x128) :
    shapeCast S1x128 (shapeCast S128 b h1) h2 = b :=
  shapeCast_shapeCast b h1 h2

/-- A one-element vector cast to a 1 x 1 matrix, read at (0, 0), is the element. -/
theorem one_by_one (a : S1.Idx → α) (h : S1.ShapeCasts S1x1) :
    shapeCast S1x1 a h (ix2 0 0) = a (ix1 0) :=
  shapeCast_apply a h (ix2 0 0) (ix1 0) (by
    rewrite [Shape.rowMajor_val_two]
    rfl)

end Cert.KernelIdeal.Layout

end
-- ==== Proof.KValue.lean ====
/-
  The kernel program's arrays in terms of the launch memory: the output of each of the three layer regions is the
  named chain's `X1`, `X2`, `X3`, and the last region's four outputs are the specification's `sig`, `dist`,
  `left`, `right` of the pair rows of `X3`.

  Each region's whole-array reading is stated at the contents the region finds; the host stretch before it supplies
  those contents.  The kernel multiplies by matrices the host has transposed, and adds a bias row the host has cast
  to a vector and back: read at an index these are the untransposed matrix at the swapped index and the row itself.
-/
import proofs.«121978_j60224031425326_1_alg».proof.Proof.KHost
import proofs.«121978_j60224031425326_1_alg».proof.Proof.KConv0
import proofs.«121978_j60224031425326_1_alg».proof.Proof.KConv1
import proofs.«121978_j60224031425326_1_alg».proof.Proof.KConv2
import proofs.«121978_j60224031425326_1_alg».proof.Proof.KFinal
import proofs.«121978_j60224031425326_1_alg».proof.Proof.Layout

noncomputable section

namespace Cert.KernelIdeal.KValue

open Cert.KernelIdeal Cert.KernelIdeal.Gen Cert.KernelIdeal.Chain Cert.KernelIdeal.KHostBase Cert.KernelIdeal.KCarry
open Cert.KernelIdeal.KHost
open Idealize.ShloMosaic Idealize.ShloMosaic.TcCoe Idealize.SL.Sem Idealize.ShloMosaic.ValueIdx

variable (m : (ℓ : Loc nD τ sig) → Buf (Elt Ideal) ℓ) (ρ : Dev nD → PrngReg)

/-- A layer fed transposed matrices and a re-cast bias row is the layer of the matrices and the row themselves. -/
theorem conv_transposed (a x : S100000x128.Idx → EReal) (wr wo : S128x128.Idx → EReal) (b : S1x128.Idx → EReal)
    (hT : S128x128.Transposes [1, 0] S128x128) (h1 : S1x128.ShapeCasts S128) (h2 : S128.ShapeCasts S1x128) :
    Cert.GraphConv.conv a x (fun h k => transpose S128x128 [1, 0] wr hT (ix2 k h))
        (fun h k => transpose S128x128 [1, 0] wo hT (ix2 k h)) (fun h => shapeCast S1x128 (shapeCast S128 b h1) h2 (ix2 0 h))
      = Cert.GraphConv.conv a x (fun h k => wr (ix2 h k)) (fun h k => wo (ix2 h k)) (fun h => b (ix2 0 h)) := by
  have e1 : ∀ h k : Fin 128, transpose S128x128 [1, 0] wr hT (ix2 k h) = wr (ix2 h k) := fun h k => Layout.transpose_sq wr hT k h
  have e2 : ∀ h k : Fin 128, transpose S128x128 [1, 0] wo hT (ix2 k h) = wo (ix2 h k) := fun h k => Layout.transpose_sq wo hT k h
  rw [Layout.row_there_and_back]
  exact congrArg₂ (fun w w' => Cert.GraphConv.conv a x w w' (fun h => b (ix2 0 h)))
    (funext fun h => funext fun k => e1 h k) (funext fun h => funext fun k => e2 h k)

/-- Region 0's output: the features after layer 1. -/
theorem X1K (c : Dev nD) : W2 (F := Ideal) m ρ c (Proc.devRef .tc main_v23) = X1 (m ((c : Thread nD τ).loc main_arg0)) (m ((c : Thread nD τ).loc main_arg1)) (m ((c : Thread nD τ).loc main_arg3)) (m ((c : Thread nD τ).loc main_arg4)) (m ((c : Thread nD τ).loc main_arg5)) := by
  refine (W2_arr m ρ c 5).trans ?_
  rw [KConv0.final0 (V1 m ρ) c]
  show Cert.GraphConv.conv (W1 m ρ c (Proc.devRef .tc main_v13)) (W1 m ρ c (Proc.devRef .tc main_arg0))
      (fun h k => W1 m ρ c (Proc.devRef .tc main_v16) (ix2 k h)) (fun h k => W1 m ρ c (Proc.devRef .tc main_v19) (ix2 k h))
      (fun h => W1 m ρ c (Proc.devRef .tc main_v22) (ix2 0 h)) = _
  rw [W1_v13 m ρ c, W1_arg0 m ρ c, W1_v16 m ρ c, W1_v19 m ρ c, W1_v22 m ρ c]
  exact conv_transposed _ _ _ _ _ _ _ _

/-- Region 1's output: the features after layer 2. -/
theorem X2K (c : Dev nD) : W4 (F := Ideal) m ρ c (Proc.devRef .tc main_v43) = X2 (m ((c : Thread nD τ).loc main_arg0)) (m ((c : Thread nD τ).loc main_arg1)) (m ((c : Thread nD τ).loc main_arg3)) (m ((c : Thread nD τ).loc main_arg4)) (m ((c : Thread nD τ).loc main_arg5)) := by
  refine (W4_arr m ρ c 5).trans ?_
  rw [KConv1.final1 (V3 m ρ) c]
  show Cert.GraphConv.conv (W3 m ρ c (Proc.devRef .tc main_v33)) (W3 m ρ c (Proc.devRef .tc main_v23))
      (fun h k => W3 m ρ c (Proc.devRef .tc main_v36) (ix2 k h)) (fun h k => W3 m ρ c (Proc.devRef .tc main_v39) (ix2 k h))
      (fun h => W3 m ρ c (Proc.devRef .tc main_v42) (ix2 0 h)) = _
  rw [W3_v33 m ρ c, W3_v23 m ρ c, W3_v36 m ρ c, W3_v39 m ρ c, W3_v42 m ρ c, X1K m ρ c]
  exact conv_transposed _ _ _ _ _ _ _ _

/-- Region 2's output: the features after layer 3. -/
theorem X3K (c : Dev nD) : W6 (F := Ideal) m ρ c (Proc.devRef .tc main_v63) = X3 (m ((c : Thread nD τ).loc main_arg0)) (m ((c : Thread nD τ).loc main_arg1)) (m ((c : Thread nD τ).loc main_arg3)) (m ((c : Thread nD τ).loc main_arg4)) (m ((c : Thread nD τ).loc main_arg5)) := by
  refine (W6_arr m ρ c 5).trans ?_
  rw [KConv2.final2 (V5 m ρ) c]
  show Cert.GraphConv.conv (W5 m ρ c (Proc.devRef .tc main_v53)) (W5 m ρ c (Proc.devRef .tc main_v43))
      (fun h k => W5 m ρ c (Proc.devRef .tc main_v56) (ix2 k h)) (fun h k => W5 m ρ c (Proc.devRef .tc main_v59) (ix2 k h))
      (fun h => W5 m ρ c (Proc.devRef .tc main_v62) (ix2 0 h)) = _
  rw [W5_v53 m ρ c, W5_v43 m ρ c, W5_v56 m ρ c, W5_v59 m ρ c, W5_v62 m ρ c, X2K m ρ c]
  exact conv_transposed _ _ _ _ _ _ _ _

/-- The first result: the logistic read-out of each pair. -/
theorem out0 (c : Dev nD) :
    W8 (F := Ideal) m ρ c (Proc.devRef .tc main_v67_0)
      = Cert.GraphConv.sig (pairs (X3 (m ((c : Thread nD τ).loc main_arg0)) (m ((c : Thread nD τ).loc main_arg1)) (m ((c : Thread nD τ).loc main_arg3)) (m ((c : Thread nD τ).loc main_arg4)) (m ((c : Thread nD τ).loc main_arg5)))) (fun k => (m ((c : Thread nD τ).loc main_arg6)) (ix2 0 k)) ((m ((c : Thread nD τ).loc main_arg7)) (ix1 0)) := by
  refine (W8_arr m ρ c 3).trans ?_
  rw [KFinal.final3_sig (V7 m ρ) c]
  show Cert.GraphConv.sig (W7 m ρ c (Proc.devRef .tc main_v64)) (fun k => W7 m ρ c (Proc.devRef .tc main_v65) (ix2 k 0))
      (W7 m ρ c (Proc.devRef .tc main_v66) (ix2 0 0)) = _
  rw [W7_v64 m ρ c, W7_v65 m ρ c, W7_v66 m ρ c, X3K m ρ c]
  rw [Layout.one_by_one]
  exact congrArg (fun w => Cert.GraphConv.sig _ w _) (funext fun k => Layout.transpose_row _ _ k)

/-- The second result: the distances. -/
theorem out1 (c : Dev nD) :
    W8 (F := Ideal) m ρ c (Proc.devRef .tc main_v67_1) = Cert.GraphConv.dist (pairs (X3 (m ((c : Thread nD τ).loc main_arg0)) (m ((c : Thread nD τ).loc main_arg1)) (m ((c : Thread nD τ).loc main_arg3)) (m ((c : Thread nD τ).loc main_arg4)) (m ((c : Thread nD τ).loc main_arg5)))) := by
  refine (W8_arr m ρ c 4).trans ?_
  rw [KFinal.final3_dist (V7 m ρ) c]
  show Cert.GraphConv.dist (W7 m ρ c (Proc.devRef .tc main_v64)) = _
  rw [W7_v64 m ρ c, X3K m ρ c]

/-- The third result: the first node of each pair. -/
theorem out2 (c : Dev nD) :
    W8 (F := Ideal) m ρ c (Proc.devRef .tc main_v67_2) = Cert.GraphConv.left (pairs (X3 (m ((c : Thread nD τ).loc main_arg0)) (m ((c : Thread nD τ).loc main_arg1)) (m ((c : Thread nD τ).loc main_arg3)) (m ((c : Thread nD τ).loc main_arg4)) (m ((c : Thread nD τ).loc main_arg5)))) := by
  refine (W8_arr m ρ c 5).trans ?_
  rw [KFinal.final3_left (V7 m ρ) c]
  show Cert.GraphConv.left (W7 m ρ c (Proc.devRef .tc main_v64)) = _
  rw [W7_v64 m ρ c, X3K m ρ c]

/-- The fourth result: the second node of each pair. -/
theorem out3 (c : Dev nD) :
    W8 (F := Ideal) m ρ c (Proc.devRef .tc main_v67_3) = Cert.GraphConv.right (pairs (X3 (m ((c : Thread nD τ).loc main_arg0)) (m ((c : Thread nD τ).loc main_arg1)) (m ((c : Thread nD τ).loc main_arg3)) (m ((c : Thread nD τ).loc main_arg4)) (m ((c : Thread nD τ).loc main_arg5)))) := by
  refine (W8_arr m ρ c 6).trans ?_
  rw [KFinal.final3_right (V7 m ρ) c]
  show Cert.GraphConv.right (W7 m ρ c (Proc.devRef .tc main_v64)) = _
  rw [W7_v64 m ρ c, X3K m ρ c]

end Cert.KernelIdeal.KValue

end
-- ==== Proof.RefValue.lean ====
/-
  The reference program's stages, read against the specification: each of its three layers is one `conv` of the
  aggregated features, the previous layer's features, the layer's two weight matrices and its bias row; its four
  results are `sig`, `dist`, `left`, `right` of the last layer's features re-read as rows of pairs.
-/
import proofs.«121978_j60224031425326_1_alg».proof.Proof.Gen.ReferenceIdeal.Read
import proofs.«121978_j60224031425326_1_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.TcCoe
open Idealize.ShloMosaic.ValueIdx
open scoped BigOperators

/-! ### Layer 1: where each operand is read for the output element (n, h) -/

/-- The aggregated features are read along row `n`. -/
private theorem lidx16 (n : Fin 100000) (h k : Fin 128) : lidx_main_v16 (ix2 n h) k = ix2 n k :=
  funext fun a => Fin.ext (by match a with | ⟨0, _⟩ => rfl | ⟨1, _⟩ => rfl)

/-- The first weight matrix is read along its row `h`. -/
private theorem ridx16 (n : Fin 100000) (h k : Fin 128) : ridx_main_v16 (ix2 n h) k = ix2 h k :=
  funext fun a => Fin.ext (by match a with | ⟨0, _⟩ => rfl | ⟨1, _⟩ => rfl)

/-- The node features are read along row `n`. -/
private theorem lidx24 (n : Fin 100000) (h k : Fin 128) : lidx_main_v24 (ix2 n h) k = ix2 n k :=
  funext fun a => Fin.ext (by match a with | ⟨0, _⟩ => rfl | ⟨1, _⟩ => rfl)

/-- The second weight matrix is read along its row `h`. -/
private theorem ridx24 (n : Fin 100000) (h k : Fin 128) : ridx_main_v24 (ix2 n h) k = ix2 h k :=
  funext fun a => Fin.ext (by match a with | ⟨0, _⟩ => rfl | ⟨1, _⟩ => rfl)

/-- The bias row, flattened and broadcast back over the nodes, is read at column `h`. -/
private theorem bidx20 (n : Fin 100000) (h : Fin 128) :
    idx_main_v18 (idx_main_v19 (idx_main_v20 (ix2 n h))) = ix2 0 h :=
  funext fun a => Fin.ext (by
    match a with
    | ⟨0, _⟩ => rfl
    | ⟨1, _⟩ => show h.val % 128 = h.val; exact Nat.mod_eq_of_lt h.isLt)

/-! ### Layer 2: where each operand is read for the output element (n, h) -/

/-- The aggregated features are read along row `n`. -/
private theorem lidx39 (n : Fin 100000) (h k : Fin 128) : lidx_main_v39 (ix2 n h) k = ix2 n k :=
  funext fun a => Fin.ext (by match a with | ⟨0, _⟩ => rfl | ⟨1, _⟩ => rfl)

/-- The first weight matrix is read along its row `h`. -/
private theorem ridx39 (n : Fin 100000) (h k : Fin 128) : ridx_main_v39 (ix2 n h) k = ix2 h k :=
  funext fun a => Fin.ext (by match a with | ⟨0, _⟩ => rfl | ⟨1, _⟩ => rfl)

/-- The node features are read along row `n`. -/
private theorem lidx47 (n : Fin 100000) (h k : Fin 128) : lidx_main_v47 (ix2 n h) k = ix2 n k :=
  funext fun a => Fin.ext (by match a with | ⟨0, _⟩ => rfl | ⟨1, _⟩ => rfl)

/-- The second weight matrix is read along its row `h`. -/
private theorem ridx47 (n : Fin 100000) (h k : Fin 128) : ridx_main_v47 (ix2 n h) k = ix2 h k :=
  funext fun a => Fin.ext (by match a with | ⟨0, _⟩ => rfl | ⟨1, _⟩ => rfl)

/-- The bias row, flattened and broadcast back over the nodes, is read at column `h`. -/
private theorem bidx43 (n : Fin 100000) (h : Fin 128) :
    idx_main_v41 (idx_main_v42 (idx_main_v43 (ix2 n h))) = ix2 0 h :=
  funext fun a => Fin.ext (by
    match a with
    | ⟨0, _⟩ => rfl
    | ⟨1, _⟩ => show h.val % 128 = h.val; exact Nat.mod_eq_of_lt h.isLt)

/-! ### Layer 3: where each operand is read for the output element (n, h) -/

/-- The aggregated features are read along row `n`. -/
private theorem lidx62 (n : Fin 100000) (h k : Fin 128) : lidx_main_v62 (ix2 n h) k = ix2 n k :=
  funext fun a => Fin.ext (by match a with | ⟨0, _⟩ => rfl | ⟨1, _⟩ => rfl)

/-- The first weight matrix is read along its row `h`. -/
private theorem ridx62 (n : Fin 100000) (h k : Fin 128) : ridx_main_v62 (ix2 n h) k = ix2 h k :=
  funext fun a => Fin.ext (by match a with | ⟨0, _⟩ => rfl | ⟨1, _⟩ => rfl)

/-- The node features are read along row `n`. -/
private theorem lidx70 (n : Fin 100000) (h k : Fin 128) : lidx_main_v70 (ix2 n h) k = ix2 n k :=
  funext fun a => Fin.ext (by match a with | ⟨0, _⟩ => rfl | ⟨1, _⟩ => rfl)

/-- The second weight matrix is read along its row `h`. -/
private theorem ridx70 (n : Fin 100000) (h k : Fin 128) : ridx_main_v70 (ix2 n h) k = ix2 h k :=
  funext fun a => Fin.ext (by match a with | ⟨0, _⟩ => rfl | ⟨1, _⟩ => rfl)

/-- The bias row, flattened and broadcast back over the nodes, is read at column `h`. -/
private theorem bidx66 (n : Fin 100000) (h : Fin 128) :
    idx_main_v64 (idx_main_v65 (idx_main_v66 (ix2 n h))) = ix2 0 h :=
  funext fun a => Fin.ext (by
    match a with
    | ⟨0, _⟩ => rfl
    | ⟨1, _⟩ => show h.val % 128 = h.val; exact Nat.mod_eq_of_lt h.isLt)

/-- Layer 1. -/
theorem v26_eq (x0 : FVec Ideal S100000x128 .f32) (x1 : IVec S2x1600000 32) (x3 : FVec Ideal S3x128x128 .f32) (x4 : FVec Ideal S3x128 .f32) (x5 : FVec Ideal S3x128x128 .f32) :
    val_main_v26 (F := Ideal) x0 x1 x3 x4 x5
      = Cert.GraphConv.conv (val_main_v13 (F := Ideal) x0 x1) x0
          (fun h k => val_main_v15 (F := Ideal) x3 (ix2 h k)) (fun h k => val_main_v23 (F := Ideal) x5 (ix2 h k))
          (fun h => val_main_v17 (F := Ideal) x4 (ix2 0 h)) := by
  funext i
  obtain ⟨n, h, rfl⟩ : ∃ (n : Fin 100000) (h : Fin 128), i = ix2 n h := ⟨i 0, i 1, eq_ix2 i⟩
  rw [Cert.GraphConv.conv_ix2, val_main_v26_apply, val_main_v25_apply, val_main_v21_apply, val_main_v16_apply,
    val_main_v20_apply, val_main_v19_apply, val_main_v18_apply, val_main_v24_apply, val_main_call0_v0_apply,
    val_main_call0_cst_apply]
  simp only [lidx16, ridx16, lidx24, ridx24, bidx20, Ideal.maximumf_def, Ideal.addf_def, Ideal.ofBits_def,
    Ideal.ofBits_zero_f32]
  rfl

/-- Layer 2. -/
theorem v49_eq (x0 : FVec Ideal S100000x128 .f32) (x1 : IVec S2x1600000 32) (x3 : FVec Ideal S3x128x128 .f32) (x4 : FVec Ideal S3x128 .f32) (x5 : FVec Ideal S3x128x128 .f32) :
    val_main_v49 (F := Ideal) x0 x1 x3 x4 x5
      = Cert.GraphConv.conv (val_main_v36 (F := Ideal) x0 x1 x3 x4 x5) (val_main_v26 (F := Ideal) x0 x1 x3 x4 x5)
          (fun h k => val_main_v38 (F := Ideal) x3 (ix2 h k)) (fun h k => val_main_v46 (F := Ideal) x5 (ix2 h k))
          (fun h => val_main_v40 (F := Ideal) x4 (ix2 0 h)) := by
  funext i
  obtain ⟨n, h, rfl⟩ : ∃ (n : Fin 100000) (h : Fin 128), i = ix2 n h := ⟨i 0, i 1, eq_ix2 i⟩
  rw [Cert.GraphConv.conv_ix2, val_main_v49_apply, val_main_v48_apply, val_main_v44_apply, val_main_v39_apply,
    val_main_v43_apply, val_main_v42_apply, val_main_v41_apply, val_main_v47_apply, val_main_call1_v0_apply,
    val_main_call1_cst_apply]
  simp only [lidx39, ridx39, lidx47, ridx47, bidx43, Ideal.maximumf_def, Ideal.addf_def, Ideal.ofBits_def,
    Ideal.ofBits_zero_f32]
  rfl

/-- Layer 3. -/
theorem v72_eq (x0 : FVec Ideal S100000x128 .f32) (x1 : IVec S2x1600000 32) (x3 : FVec Ideal S3x128x128 .f32) (x4 : FVec Ideal S3x128 .f32) (x5 : FVec Ideal S3x128x128 .f32) :
    val_main_v72 (F := Ideal) x0 x1 x3 x4 x5
      = Cert.GraphConv.conv (val_main_v59 (F := Ideal) x0 x1 x3 x4 x5) (val_main_v49 (F := Ideal) x0 x1 x3 x4 x5)
          (fun h k => val_main_v61 (F := Ideal) x3 (ix2 h k)) (fun h k => val_main_v69 (F := Ideal) x5 (ix2 h k))
          (fun h => val_main_v63 (F := Ideal) x4 (ix2 0 h)) := by
  funext i
  obtain ⟨n, h, rfl⟩ : ∃ (n : Fin 100000) (h : Fin 128), i = ix2 n h := ⟨i 0, i 1, eq_ix2 i⟩
  rw [Cert.GraphConv.conv_ix2, val_main_v72_apply, val_main_v71_apply, val_main_v67_apply, val_main_v62_apply,
    val_main_v66_apply, val_main_v65_apply, val_main_v64_apply, val_main_v70_apply, val_main_call2_v0_apply,
    val_main_call2_cst_apply]
  simp only [lidx62, ridx62, lidx70, ridx70, bidx66, Ideal.maximumf_def, Ideal.addf_def, Ideal.ofBits_def,
    Ideal.ofBits_zero_f32]
  rfl

/-! ### The read-out: the two halves of a pair row, the distance and the logistic function -/

/-- Column `h` of the left half of a pair row is column `h` of the row. -/
private theorem idx74 (n : Fin 50000) (h : Fin 128) :
    idx_main_v74 (ix2 n h) = ix2 n (⟨h.val, by have := h.isLt; omega⟩ : Fin 256) :=
  funext fun a => Fin.ext (by match a with | ⟨0, _⟩ => rfl | ⟨1, _⟩ => rfl)

/-- Column `h` of the right half of a pair row is column `128 + h` of the row. -/
private theorem idx75 (n : Fin 50000) (h : Fin 128) :
    idx_main_v75 (ix2 n h) = ix2 n (⟨128 + h.val, by have := h.isLt; omega⟩ : Fin 256) :=
  funext fun a => Fin.ext (by match a with | ⟨0, _⟩ => rfl | ⟨1, _⟩ => rfl)

/-- The distances are read along row `n`. -/
private theorem lidx81 (n : Fin 50000) (u : Fin 1) (k : Fin 128) : lidx_main_v81 (ix2 n u) k = ix2 n k :=
  funext fun a => Fin.ext (by match a with | ⟨0, _⟩ => rfl | ⟨1, _⟩ => rfl)

/-- The read-out weights are one row, read at column `k`. -/
private theorem ridx81 (n : Fin 50000) (u : Fin 1) (k : Fin 128) : ridx_main_v81 (ix2 n u) k = ix2 0 k :=
  funext fun a => Fin.ext (by
    match a with
    | ⟨0, _⟩ => show u.val = 0; exact Nat.lt_one_iff.mp u.isLt
    | ⟨1, _⟩ => rfl)

/-- The read-out bias is one number, read for every pair. -/
private theorem bidx83 (n : Fin 50000) (u : Fin 1) : idx_main_v82 (idx_main_v83 (ix2 n u)) = ix1 0 :=
  funext fun a => Fin.ext (by match a with | ⟨0, _⟩ => rfl)

/-- The first node of each pair. -/
theorem v74_eq (x0 : FVec Ideal S100000x128 .f32) (x1 : IVec S2x1600000 32) (x3 : FVec Ideal S3x128x128 .f32) (x4 : FVec Ideal S3x128 .f32) (x5 : FVec Ideal S3x128x128 .f32) :
    val_main_v74 (F := Ideal) x0 x1 x3 x4 x5 = Cert.GraphConv.left (val_main_v73 (F := Ideal) x0 x1 x3 x4 x5) := by
  funext i
  obtain ⟨n, h, rfl⟩ : ∃ (n : Fin 50000) (h : Fin 128), i = ix2 n h := ⟨i 0, i 1, eq_ix2 i⟩
  rw [val_main_v74_apply, idx74, Cert.GraphConv.left_ix2]
  rfl

/-- The second node of each pair. -/
theorem v75_eq (x0 : FVec Ideal S100000x128 .f32) (x1 : IVec S2x1600000 32) (x3 : FVec Ideal S3x128x128 .f32) (x4 : FVec Ideal S3x128 .f32) (x5 : FVec Ideal S3x128x128 .f32) :
    val_main_v75 (F := Ideal) x0 x1 x3 x4 x5 = Cert.GraphConv.right (val_main_v73 (F := Ideal) x0 x1 x3 x4 x5) := by
  funext i
  obtain ⟨n, h, rfl⟩ : ∃ (n : Fin 50000) (h : Fin 128), i = ix2 n h := ⟨i 0, i 1, eq_ix2 i⟩
  rw [val_main_v75_apply, idx75, Cert.GraphConv.right_ix2]
  rfl

/-- sqrt ((left - right)^2 + eps). -/
theorem v80_eq (x0 : FVec Ideal S100000x128 .f32) (x1 : IVec S2x1600000 32) (x3 : FVec Ideal S3x128x128 .f32) (x4 : FVec Ideal S3x128 .f32) (x5 : FVec Ideal S3x128x128 .f32) :
    val_main_v80 (F := Ideal) x0 x1 x3 x4 x5 = Cert.GraphConv.dist (val_main_v73 (F := Ideal) x0 x1 x3 x4 x5) := by
  funext i
  obtain ⟨n, h, rfl⟩ : ∃ (n : Fin 50000) (h : Fin 128), i = ix2 n h := ⟨i 0, i 1, eq_ix2 i⟩
  rw [val_main_v80_apply, val_main_v79_apply, val_main_v77_apply, val_main_v76_apply, val_main_v78_apply,
    val_main_cst_7_apply, v74_eq, v75_eq, Cert.GraphConv.dist_ix2, Cert.GraphConv.left_ix2, Cert.GraphConv.right_ix2]
  simp only [Ideal.hostUnary_sqrt_def, Ideal.addf_def, Ideal.mulf_def, Ideal.subf_def, Ideal.ofBits_def]
  rfl

/-- The logistic read-out: the expansion 1 / (1 + exp (-z)) is the logistic function on the extended reals. -/
theorem v90_eq (x0 : FVec Ideal S100000x128 .f32) (x1 : IVec S2x1600000 32) (x3 : FVec Ideal S3x128x128 .f32) (x4 : FVec Ideal S3x128 .f32) (x5 : FVec Ideal S3x128x128 .f32) (x6 : FVec Ideal S1x128 .f32) (x7 : FVec Ideal S1 .f32) :
    val_main_v90 (F := Ideal) x0 x1 x3 x4 x5 x6 x7
      = Cert.GraphConv.sig (val_main_v73 (F := Ideal) x0 x1 x3 x4 x5) (fun k => x6 (ix2 0 k)) (x7 (ix1 0)) := by
  funext i
  obtain ⟨n, u, rfl⟩ : ∃ (n : Fin 50000) (u : Fin 1), i = ix2 n u := ⟨i 0, i 1, eq_ix2 i⟩
  rw [Cert.GraphConv.sig_ix2, val_main_v90_apply, val_main_v89_apply, val_main_cst_9_apply, val_main_v88_apply,
    val_main_v87_apply, val_main_cst_8_apply, val_main_v86_apply, val_main_v85_apply, val_main_v84_apply,
    val_main_v81_apply, val_main_v83_apply, val_main_v82_apply, v80_eq]
  simp only [lidx81, ridx81, bidx83, Cert.GraphConv.dist_ix2, Ideal.hostDivf_def, Ideal.addf_def,
    Ideal.hostUnary_exp_def, Ideal.hostNegf_def, Ideal.negf_def, Ideal.ofBits_def, Ideal.ofBits_one_f32]
  rfl

end Cert.ReferenceIdeal.RefValue

end
-- ==== Proof.RefChain.lean ====
/-
  The reference program's stages as the named chain: its neighbourhood sums are `aggF` of the previous features,
  its weight matrices and bias rows the slices `wslice` / `bslice`, so its three layers' features are `X1`, `X2`,
  `X3` and its pair rows `pairs X3`.
-/
import proofs.«121978_j60224031425326_1_alg».proof.Proof.RefValue
import proofs.«121978_j60224031425326_1_alg».proof.Proof.Chain

noncomputable section

namespace Cert.ReferenceIdeal.RefChain

open Cert.ReferenceIdeal Cert.ReferenceIdeal.Read Idealize.ShloMosaic Idealize.ShloMosaic.TcCoe
open Cert.KernelIdeal.Chain
open Idealize.ShloMosaic.ValueIdx

variable (a0 : (⟨Cert.KernelIdeal.S100000x128, .f32⟩ : BufTy).Contents (Elt Ideal)) (a1 : (⟨Cert.KernelIdeal.S2x1600000, .i32⟩ : BufTy).Contents (Elt Ideal)) (a3 : (⟨Cert.KernelIdeal.S3x128x128, .f32⟩ : BufTy).Contents (Elt Ideal))
  (a4 : (⟨Cert.KernelIdeal.S3x128, .f32⟩ : BufTy).Contents (Elt Ideal)) (a5 : (⟨Cert.KernelIdeal.S3x128x128, .f32⟩ : BufTy).Contents (Elt Ideal))

/-! ### The two programs' records, the edge rows and the parameter slices -/

/-- The scatter records of the two programs have the same fields. -/
private theorem scatter_eq :
    Cert.ReferenceIdeal.scatter_S100000x128_S1600000x1_S1600000x128_1_0_0_1 = Cert.KernelIdeal.scatter_S100000x128_S1600000x1_S1600000x128_1_0_0_1 := rfl

/-- So have their gather records. -/
private theorem gather_eq :
    Cert.ReferenceIdeal.gather_S100000x128_S1600000x1_S1600000x128_1_0_n_n_0_1_1128 = Cert.KernelIdeal.gather_S100000x128_S1600000x1_S1600000x128_1_0_n_n_0_1_1128 := rfl

/-- The first row of the edge list holds the source nodes. -/
private theorem v1_src : val_main_v1 (F := Ideal) a1 = srcOf a1 := by
  unfold val_main_v1 val_main_v0 srcOf; rfl

/-- The second row holds the target nodes. -/
private theorem v3_dst : val_main_v3 (F := Ideal) a1 = dstOf a1 := by
  unfold val_main_v3 val_main_v2 dstOf; rfl

/-- The neighbourhood sum of any features `x`, as layer 1 of the reference spells it. -/
private theorem agg1 (x : (⟨Cert.KernelIdeal.S100000x128, .f32⟩ : BufTy).Contents (Elt Ideal)) :
    (Host.scatterAdd (F := Ideal) (φ := .f32) Cert.ReferenceIdeal.scatter_S100000x128_S1600000x1_S1600000x128_1_0_0_1 (val_main_v11 (F := Ideal)) (val_main_v12 (F := Ideal) a1)
        (Host.gather Cert.ReferenceIdeal.gather_S100000x128_S1600000x1_S1600000x128_1_0_n_n_0_1_1128 x (val_main_v9 (F := Ideal) a1))
        : (⟨S100000x128, .f32⟩ : BufTy).Contents (Elt Ideal))
      = aggF x (srcOf a1) (dstOf a1) := by
  unfold val_main_v11 val_main_cst val_main_v12 val_main_v9 val_main_v8 val_main_v5 val_main_v4 val_main_c
    val_main_v7 val_main_v6 val_main_c_0 aggF
  rw [scatter_eq, gather_eq, v3_dst, v1_src]

/-- The neighbourhood sum of any features `x`, as layer 2 of the reference spells it. -/
private theorem agg2 (x : (⟨Cert.KernelIdeal.S100000x128, .f32⟩ : BufTy).Contents (Elt Ideal)) :
    (Host.scatterAdd (F := Ideal) (φ := .f32) Cert.ReferenceIdeal.scatter_S100000x128_S1600000x1_S1600000x128_1_0_0_1 (val_main_v34 (F := Ideal)) (val_main_v35 (F := Ideal) a1)
        (Host.gather Cert.ReferenceIdeal.gather_S100000x128_S1600000x1_S1600000x128_1_0_n_n_0_1_1128 x (val_main_v32 (F := Ideal) a1))
        : (⟨S100000x128, .f32⟩ : BufTy).Contents (Elt Ideal))
      = aggF x (srcOf a1) (dstOf a1) := by
  unfold val_main_v34 val_main_cst_3 val_main_v35 val_main_v32 val_main_v31 val_main_v28 val_main_v27 val_main_c_1
    val_main_v30 val_main_v29 val_main_c_2 aggF
  rw [scatter_eq, gather_eq, v3_dst, v1_src]

/-- The neighbourhood sum of any features `x`, as layer 3 of the reference spells it. -/
private theorem agg3 (x : (⟨Cert.KernelIdeal.S100000x128, .f32⟩ : BufTy).Contents (Elt Ideal)) :
    (Host.scatterAdd (F := Ideal) (φ := .f32) Cert.ReferenceIdeal.scatter_S100000x128_S1600000x1_S1600000x128_1_0_0_1 (val_main_v57 (F := Ideal)) (val_main_v58 (F := Ideal) a1)
        (Host.gather Cert.ReferenceIdeal.gather_S100000x128_S1600000x1_S1600000x128_1_0_n_n_0_1_1128 x (val_main_v55 (F := Ideal) a1))
        : (⟨S100000x128, .f32⟩ : BufTy).Contents (Elt Ideal))
      = aggF x (srcOf a1) (dstOf a1) := by
  unfold val_main_v57 val_main_cst_6 val_main_v58 val_main_v55 val_main_v54 val_main_v51 val_main_v50 val_main_c_4
    val_main_v53 val_main_v52 val_main_c_5 aggF
  rw [scatter_eq, gather_eq, v3_dst, v1_src]

/-- Layer 1's two matrices and bias row are the named slices. -/
private theorem v15_w : val_main_v15 (F := Ideal) a3 = wslice0 a3 := by
  unfold val_main_v15 val_main_v14 wslice0; rfl

private theorem v23_w : val_main_v23 (F := Ideal) a5 = wslice0 a5 := by
  unfold val_main_v23 val_main_v22 wslice0; rfl

private theorem v17_b : val_main_v17 (F := Ideal) a4 = bslice0 a4 := by
  unfold val_main_v17 bslice0; rfl

/-- Layer 2's two matrices and bias row are the named slices. -/
private theorem v38_w : val_main_v38 (F := Ideal) a3 = wslice1 a3 := by
  unfold val_main_v38 val_main_v37 wslice1; rfl

private theorem v46_w : val_main_v46 (F := Ideal) a5 = wslice1 a5 := by
  unfold val_main_v46 val_main_v45 wslice1; rfl

private theorem v40_b : val_main_v40 (F := Ideal) a4 = bslice1 a4 := by
  unfold val_main_v40 bslice1; rfl

/-- Layer 3's two matrices and bias row are the named slices. -/
private theorem v61_w : val_main_v61 (F := Ideal) a3 = wslice2 a3 := by
  unfold val_main_v61 val_main_v60 wslice2; rfl

private theorem v69_w : val_main_v69 (F := Ideal) a5 = wslice2 a5 := by
  unfold val_main_v69 val_main_v68 wslice2; rfl

private theorem v63_b : val_main_v63 (F := Ideal) a4 = bslice2 a4 := by
  unfold val_main_v63 bslice2; rfl

/-- Layer 1's neighbourhood sum is `aggF` of the input features. -/
private theorem v13_agg : val_main_v13 (F := Ideal) a0 a1 = aggF a0 (srcOf a1) (dstOf a1) := by
  unfold val_main_v13 val_main_v10
  exact agg1 a1 a0

/-- Layer 2's is `aggF` of layer 1's features. -/
private theorem v36_agg : val_main_v36 (F := Ideal) a0 a1 a3 a4 a5
    = aggF (val_main_v26 (F := Ideal) a0 a1 a3 a4 a5) (srcOf a1) (dstOf a1) := by
  unfold val_main_v36 val_main_v33
  exact agg2 a1 _

/-- Layer 3's is `aggF` of layer 2's features. -/
private theorem v59_agg : val_main_v59 (F := Ideal) a0 a1 a3 a4 a5
    = aggF (val_main_v49 (F := Ideal) a0 a1 a3 a4 a5) (srcOf a1) (dstOf a1) := by
  unfold val_main_v59 val_main_v56
  exact agg3 a1 _

/-- The features after the reference's first layer. -/
theorem v26_X1 : val_main_v26 (F := Ideal) a0 a1 a3 a4 a5 = X1 a0 a1 a3 a4 a5 := by
  rw [RefValue.v26_eq, v13_agg, v15_w, v23_w, v17_b]
  rfl

/-- After its second layer. -/
theorem v49_X2 : val_main_v49 (F := Ideal) a0 a1 a3 a4 a5 = X2 a0 a1 a3 a4 a5 := by
  rw [RefValue.v49_eq, v36_agg, v26_X1, v38_w, v46_w, v40_b]
  rfl

/-- After its third layer. -/
theorem v72_X3 : val_main_v72 (F := Ideal) a0 a1 a3 a4 a5 = X3 a0 a1 a3 a4 a5 := by
  rw [RefValue.v72_eq, v59_agg, v49_X2, v61_w, v69_w, v63_b]
  rfl

/-- Its pair rows. -/
theorem v73_pairs : val_main_v73 (F := Ideal) a0 a1 a3 a4 a5 = pairs (X3 a0 a1 a3 a4 a5) := by
  unfold val_main_v73 pairs
  rw [v72_X3]

end Cert.ReferenceIdeal.RefChain

end
-- ==== Proof.lean ====
/-
  Three graph-convolution layers and a pairwise read-out, computed two ways.

  The kernel program runs each layer's dense part (two 128 x 128 matrix products, a bias, a maximum with zero) as a
  pipelined region over 50 blocks of 2000 rows, the neighbourhood sums (a gather and a scatter-add along the edge
  list) on the host between the regions, and the read-out (the difference of adjacent nodes, a square root, a
  128-term product and the logistic function) as a last region over 25 blocks of 2000 pairs.  The reference runs
  everything on the host.  Read at the extended reals the two are the same function of the arguments:

  * a neighbourhood sum is one opaque function `aggF` of the features and the edge list on both sides, never opened;
  * a layer is `conv`: node n, feature h gets  max ((Σ_k a[n,k] w[h,k] + b[h]) + Σ_k x[n,k] w'[h,k], 0).  The
    kernel multiplies by host-transposed matrices and adds the bias last, the reference contracts the second axis
    of both operands and adds the bias in the middle: the same terms, regrouped by commutativity and associativity
    of addition on the extended reals (no finiteness is needed);
  * the read-out is `sig`, `dist`, `left`, `right` of the features re-read as rows of pairs; the kernel's
    logistic function and the reference's 1 / (1 + exp (-z)) are one function on the extended reals.

  So the kernel's four result arrays and the reference's are both `sig`, `dist`, `left`, `right` of
  `pairs (X3 …)`, with `X3` the features after three layers as a term of the arguments.  The frames of the two kernel
  programs are the generated ones; the reference's frame is its generated run with the results dropped; the ledger
  of the idealization is empty.
-/
import proofs.«121978_j60224031425326_1_alg».proof.Defs
import proofs.«121978_j60224031425326_1_alg».proof.Proof.Gen.Kernel
import proofs.«121978_j60224031425326_1_alg».proof.Proof.Gen.Kernel.Skeleton
import proofs.«121978_j60224031425326_1_alg».proof.Proof.Gen.Kernel.Launch
import proofs.«121978_j60224031425326_1_alg».proof.Proof.Gen.Kernel.Points
import proofs.«121978_j60224031425326_1_alg».proof.Proof.Gen.Kernel.Frame
import proofs.«121978_j60224031425326_1_alg».proof.Proof.Gen.KernelIdeal
import proofs.«121978_j60224031425326_1_alg».proof.Proof.Gen.KernelIdeal.Skeleton
import proofs.«121978_j60224031425326_1_alg».proof.Proof.Gen.KernelIdeal.Launch
import proofs.«121978_j60224031425326_1_alg».proof.Proof.Gen.KernelIdeal.Points
import proofs.«121978_j60224031425326_1_alg».proof.Proof.Gen.KernelIdeal.Frame
import proofs.«121978_j60224031425326_1_alg».proof.Proof.Gen.ReferenceIdeal
import proofs.«121978_j60224031425326_1_alg».proof.Proof.Gen.Pre_finite_inputs
import proofs.«121978_j60224031425326_1_alg».proof.Proof.Gen.ReferenceIdeal.Run
import proofs.«121978_j60224031425326_1_alg».proof.Proof.Gen.ReferenceIdeal.Read
import proofs.«121978_j60224031425326_1_alg».proof.Proof.KRun
import proofs.«121978_j60224031425326_1_alg».proof.Proof.KValue
import proofs.«121978_j60224031425326_1_alg».proof.Proof.RefChain
import Idealize.ShloMosaic.Adequacy
import Idealize.ShloMosaic.Init

noncomputable section

namespace Cert.Proof

open Idealize.ShloMosaic Idealize.ShloMosaic.TcCoe Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run with the results dropped. -/
theorem frame_referenceIdeal : Cert.frame_ReferenceIdeal := fun m ρ _ =>
  (θ_run Cert.ReferenceIdeal.defs _ _).mono (fun _ h c => (h c).2.2.2.2) (Cert.ReferenceIdeal.Value.run (F := Ideal) m ρ)

/-- The idealization's ledger is empty. -/
theorem preserves : Cert.preserves_Kernel_KernelIdeal := trivial

/-- Both programs end with `sig`, `dist`, `left`, `right` of the pair rows of the features after three layers. -/
theorem algebraic : Cert.algebraic_KernelIdeal_ReferenceIdeal := by
  intro m ρ m' ρ' _ hagree
  refine ⟨fun c => Cert.GraphConv.sig (Cert.KernelIdeal.Chain.pairs (Cert.KernelIdeal.Chain.X3 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)))) (fun k => (m ((c.tc : Thread Cert.KernelIdeal.nD Cert.KernelIdeal.τ).loc Cert.KernelIdeal.main_arg6)) (ix2 0 k)) ((m ((c.tc : Thread Cert.KernelIdeal.nD Cert.KernelIdeal.τ).loc Cert.KernelIdeal.main_arg7)) (ix1 0)),
    fun c => Cert.GraphConv.dist (Cert.KernelIdeal.Chain.pairs (Cert.KernelIdeal.Chain.X3 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)))),
    fun c => Cert.GraphConv.left (Cert.KernelIdeal.Chain.pairs (Cert.KernelIdeal.Chain.X3 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)))),
    fun c => Cert.GraphConv.right (Cert.KernelIdeal.Chain.pairs (Cert.KernelIdeal.Chain.X3 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)))), ?_, ?_⟩
  · exact (θ_run Cert.KernelIdeal.defs _ _).mono
      (fun r h c => ⟨(h c).1.trans (Cert.KernelIdeal.KValue.out0 m ρ c), (h c).2.1.trans (Cert.KernelIdeal.KValue.out1 m ρ c),
        (h c).2.2.1.trans (Cert.KernelIdeal.KValue.out2 m ρ c), (h c).2.2.2.1.trans (Cert.KernelIdeal.KValue.out3 m ρ c),
        (h c).2.2.2.2⟩)
      (Cert.KernelIdeal.KRun.run (F := Ideal) m ρ)
  · refine (θ_run Cert.ReferenceIdeal.defs _ _).mono (fun r h c => ?_) (Cert.ReferenceIdeal.Value.run (F := Ideal) m' ρ')
    obtain ⟨h0, h1, h2, h3, hargs⟩ := h c
    obtain ⟨e0, e1, e2, e3, e4, e5, e6, e7⟩ := hagree c
    refine ⟨?_, ?_, ?_, ?_, hargs⟩
    · rw [h0, Cert.ReferenceIdeal.Read.val_main_v90_eq, Cert.ReferenceIdeal.RefValue.v90_eq,
        Cert.ReferenceIdeal.RefChain.v73_pairs, e0, e1, e3, e4, e5, e6, e7]
    · rw [h1, Cert.ReferenceIdeal.Read.val_main_v80_eq, Cert.ReferenceIdeal.RefValue.v80_eq,
        Cert.ReferenceIdeal.RefChain.v73_pairs, e0, e1, e3, e4, e5]
    · rw [h2, Cert.ReferenceIdeal.Read.val_main_v74_eq, Cert.ReferenceIdeal.RefValue.v74_eq,
        Cert.ReferenceIdeal.RefChain.v73_pairs, e0, e1, e3, e4, e5]
    · rw [h3, Cert.ReferenceIdeal.Read.val_main_v75_eq, Cert.ReferenceIdeal.RefValue.v75_eq,
        Cert.ReferenceIdeal.RefChain.v73_pairs, e0, e1, e3, e4, e5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
